-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x600000 : Shape := ⟨2, ![2, 600000]⟩
abbrev S600000x6 : Shape := ⟨2, ![600000, 6]⟩
abbrev S100000 : Shape := ⟨1, ![100000]⟩
abbrev S6x128 : Shape := ⟨2, ![6, 128]⟩
abbrev S128 : Shape := ⟨1, ![128]⟩
abbrev S_ : Shape := ⟨0, ![]⟩
abbrev S128x128 : Shape := ⟨2, ![128, 128]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S600000x6 : S_.BroadcastsInDim S600000x6 (![] : Fin 0 → Fin S600000x6.rank)
  reducesTo_S600000x6_S_d0_1 : S600000x6.ReducesTo [0, 1] S_
  bcast_S_S6x128 : S_.BroadcastsInDim S6x128 (![] : Fin 0 → Fin S6x128.rank)
  reducesTo_S6x128_S_d0_1 : S6x128.ReducesTo [0, 1] S_
  bcast_S_S128 : S_.BroadcastsInDim S128 (![] : Fin 0 → Fin S128.rank)
  reducesTo_S128_S_d0 : S128.ReducesTo [0] S_
  reducesTo_S_S_d : S_.ReducesTo [] S_
  bcast_S_S128x128 : S_.BroadcastsInDim S128x128 (![] : Fin 0 → Fin S128x128.rank)
  reducesTo_S128x128_S_d0_1 : S128x128.ReducesTo [0, 1] S_

variable [Facts]

def fn_part3 {F : FTy → Type} [FloatOps F] (main_v47 : IVec S_ 1) (main_v50 : IVec S128 1) : IVec S_ 1 :=
  let main_c_19 : IVec S_ 1 := constantI S_ 1 1#1
  let main_v51 : IVec S_ 1 := (fun x v => Host.reduce IntOp.andi x v reducesTo_S128_S_d0 h_S_) main_v50 main_c_19
  let main_v52 : IVec S_ 1 := andi main_v47 main_v51
  main_v52

def fn_part2 {F : FTy → Type} [FloatOps F] (main_arg10 : FVec F S128 .f32) (main_arg11 : FVec F S128 .f32) (main_arg12 : FVec F S128 .f32) (main_v32 : IVec S_ 1) (main_v33 : FVec F S128x128 .f32) : IVec S_ 1 :=
  let main_cst_12 : FVec F S_ .f32 := constant S_ .f32 0x7F800000#32
  let main_v34 : FVec F S128x128 .f32 := broadcastInDim S128x128 ![] bcast_S_S128x128 main_cst_12
  let main_v35 : IVec S128x128 1 := cmpf .olt main_v33 main_v34
  let main_c_13 : IVec S_ 1 := constantI S_ 1 1#1
  let main_v36 : IVec S_ 1 := (fun x v => Host.reduce IntOp.andi x v reducesTo_S128x128_S_d0_1 h_S_) main_v35 main_c_13
  let main_v37 : IVec S_ 1 := andi main_v32 main_v36
  let main_v38 : FVec F S128 .f32 := Host.absf main_arg10
  let main_cst_14 : FVec F S_ .f32 := constant S_ .f32 0x7F800000#32
  let main_v39 : FVec F S128 .f32 := broadcastInDim S128 ![] bcast_S_S128 main_cst_14
  let main_v40 : IVec S128 1 := cmpf .olt main_v38 main_v39
  let main_c_15 : IVec S_ 1 := constantI S_ 1 1#1
  let main_v41 : IVec S_ 1 := (fun x v => Host.reduce IntOp.andi x v reducesTo_S128_S_d0 h_S_) main_v40 main_c_15
  let main_v42 : IVec S_ 1 := andi main_v37 main_v41
  let main_v43 : FVec F S128 .f32 := Host.absf main_arg11
  let main_cst_16 : FVec F S_ .f32 := constant S_ .f32 0x7F800000#32
  let main_v44 : FVec F S128 .f32 := broadcastInDim S128 ![] bcast_S_S128 main_cst_16
  let main_v45 : IVec S128 1 := cmpf .olt main_v43 main_v44
  let main_c_17 : IVec S_ 1 := constantI S_ 1 1#1
  let main_v46 : IVec S_ 1 := (fun x v => Host.reduce IntOp.andi x v reducesTo_S128_S_d0 h_S_) main_v45 main_c_17
  let main_v47 : IVec S_ 1 := andi main_v42 main_v46
  let main_v48 : FVec F S128 .f32 := Host.absf main_arg12
  let main_cst_18 : FVec F S_ .f32 := constant S_ .f32 0x7F800000#32
  let main_v49 : FVec F S128 .f32 := broadcastInDim S128 ![] bcast_S_S128 main_cst_18
  let main_v50 : IVec S128 1 := cmpf .olt main_v48 main_v49
  fn_part3 (F := F) main_v47 main_v50

def fn_part1 {F : FTy → Type} [FloatOps F] (main_arg6 : FVec F S_ .f32) (main_arg7 : FVec F S128x128 .f32) (main_arg8 : FVec F S128 .f32) (main_arg9 : FVec F S128x128 .f32) (main_arg10 : FVec F S128 .f32) (main_arg11 : FVec F S128 .f32) (main_arg12 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S_ .f32 := Host.absf main_arg6
  let main_cst_6 : FVec F S_ .f32 := constant S_ .f32 0x7F800000#32
  let main_v20 : IVec S_ 1 := cmpf .olt main_v19 main_cst_6
  let main_c_7 : IVec S_ 1 := constantI S_ 1 1#1
  let main_v21 : IVec S_ 1 := (fun x v => Host.reduce IntOp.andi x v reducesTo_S_S_d h_S_) main_v20 main_c_7
  let main_v22 : IVec S_ 1 := andi main_v18 main_v21
  let main_v23 : FVec F S128x128 .f32 := Host.absf main_arg7
  let main_cst_8 : FVec F S_ .f32 := constant S_ .f32 0x7F800000#32
  let main_v24 : FVec F S128x128 .f32 := broadcastInDim S128x128 ![] bcast_S_S128x128 main_cst_8
  let main_v25 : IVec S128x128 1 := cmpf .olt main_v23 main_v24
  let main_c_9 : IVec S_ 1 := constantI S_ 1 1#1
  let main_v26 : IVec S_ 1 := (fun x v => Host.reduce IntOp.andi x v reducesTo_S128x128_S_d0_1 h_S_) main_v25 main_c_9
  let main_v27 : IVec S_ 1 := andi main_v22 main_v26
  let main_v28 : FVec F S128 .f32 := Host.absf main_arg8
  let main_cst_10 : FVec F S_ .f32 := constant S_ .f32 0x7F800000#32
  let main_v29 : FVec F S128 .f32 := broadcastInDim S128 ![] bcast_S_S128 main_cst_10
  let main_v30 : IVec S128 1 := cmpf .olt main_v28 main_v29
  let main_c_11 : IVec S_ 1 := constantI S_ 1 1#1
  let main_v31 : IVec S_ 1 := (fun x v => Host.reduce IntOp.andi x v reducesTo_S128_S_d0 h_S_) main_v30 main_c_11
  let main_v32 : IVec S_ 1 := andi main_v27 main_v31
  let main_v33 : FVec F S128x128 .f32 := Host.absf main_arg9
  fn_part2 (F := F) main_arg10 main_arg11 main_arg12 main_v32 main_v33

def fn {F : FTy → Type} [FloatOps F] (main_arg0 : FVec F S100000x128 .f32) (main_arg1 : IVec S2x600000 32) (main_arg2 : FVec F S600000x6 .f32) (main_arg3 : IVec S100000 32) (main_arg4 : FVec F S6x128 .f32) (main_arg5 : FVec F S128 .f32) (main_arg6 : FVec F S_ .f32) (main_arg7 : FVec F S128x128 .f32) (main_arg8 : FVec F S128 .f32) (main_arg9 : FVec F S128x128 .f32) (main_arg10 : FVec F S128 .f32) (main_arg11 : FVec F S128 .f32) (main_arg12 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S600000x6 .f32 := Host.absf main_arg2
  let main_cst_0 : FVec F S_ .f32 := constant S_ .f32 0x7F800000#32
  let main_v5 : FVec F S600000x6 .f32 := broadcastInDim S600000x6 ![] bcast_S_S600000x6 main_cst_0
  let main_v6 : IVec S600000x6 1 := cmpf .olt main_v4 main_v5
  let main_c_1 : IVec S_ 1 := constantI S_ 1 1#1
  let main_v7 : IVec S_ 1 := (fun x v => Host.reduce IntOp.andi x v reducesTo_S600000x6_S_d0_1 h_S_) main_v6 main_c_1
  let main_v8 : IVec S_ 1 := andi main_v3 main_v7
  let main_v9 : FVec F S6x128 .f32 := Host.absf main_arg4
  let main_cst_2 : FVec F S_ .f32 := constant S_ .f32 0x7F800000#32
  let main_v10 : FVec F S6x128 .f32 := broadcastInDim S6x128 ![] bcast_S_S6x128 main_cst_2
  let main_v11 : IVec S6x128 1 := cmpf .olt main_v9 main_v10
  let main_c_3 : IVec S_ 1 := constantI S_ 1 1#1
  let main_v12 : IVec S_ 1 := (fun x v => Host.reduce IntOp.andi x v reducesTo_S6x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_v13 main_v16
-- ==== Kernel.lean ====
abbrev S100000x128 : Shape := ⟨2, ![100000, 128]⟩
abbrev S2x600000 : Shape := ⟨2, ![2, 600000]⟩
abbrev S600000x6 : Shape := ⟨2, ![600000, 6]⟩
abbrev S100000 : Shape := ⟨1, ![100000]⟩
abbrev S6x128 : Shape := ⟨2, ![6, 128]⟩
abbrev S128 : Shape := ⟨1, ![128]⟩
abbrev S_ : Shape := ⟨0, ![]⟩
abbrev S128x128 : Shape := ⟨2, ![128, 128]⟩
abbrev S1x600000 : Shape := ⟨2, ![1, 600000]⟩
abbrev S600000 : Shape := ⟨1, ![600000]⟩
abbrev S600000x1 : Shape := ⟨2, ![600000, 1]⟩
abbrev S600000x128 : Shape := ⟨2, ![600000, 128]⟩
abbrev S1x128 : Shape := ⟨2, ![1, 128]⟩
abbrev S6000x128 : Shape := ⟨2, ![6000, 128]⟩
abbrev S6000x6 : Shape := ⟨2, ![6000, 6]⟩
abbrev S5000x128 : Shape := ⟨2, ![5000, 128]⟩
abbrev S5000 : Shape := ⟨1, ![5000]⟩
abbrev S5000x1 : Shape := ⟨2, ![5000, 1]⟩

abbrev nBuf : Space → Nat
  | .hbm => 40
  | .vmem => 21
  | .smem => 0
  | _ => 0

abbrev bufTy : (tb : Table) → Fin (tcTables nBuf tb) → BufTy
  | .hbm, ⟨0, _⟩ => ⟨S100000x128, .f32⟩
  | .hbm, ⟨1, _⟩ => ⟨S2x600000, .i32⟩
  | .hbm, ⟨2, _⟩ => ⟨S600000x6, .f32⟩
  | .hbm, ⟨3, _⟩ => ⟨S100000, .i32⟩
  | .hbm, ⟨4, _⟩ => ⟨S6x128, .f32⟩
  | .hbm, ⟨5, _⟩ => ⟨S128, .f32⟩
  | .hbm, ⟨6, _⟩ => ⟨S_, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128, .f32⟩
  | .hbm, ⟨12, _⟩ => ⟨S128, .f32⟩
  | .hbm, ⟨13, _⟩ => ⟨S1x600000, .i32⟩
  | .hbm, ⟨14, _⟩ => ⟨S600000, .i32⟩
  | .hbm, ⟨15, _⟩ => ⟨S1x600000, .i32⟩
  | .hbm, ⟨16, _⟩ => ⟨S600000, .i32⟩
  | .hbm, ⟨17, _⟩ => ⟨S_, .i32⟩
  | .hbm, ⟨18, _⟩ => ⟨S600000, .i32⟩
  | .hbm, ⟨19, _⟩ => ⟨S600000, .i1⟩
  | .hbm, ⟨20, _⟩ => ⟨S_, .i32⟩
  | .hbm, ⟨21, _⟩ => ⟨S600000, .i32⟩
  | .hbm, ⟨22, _⟩ => ⟨S600000, .i32⟩
  | .hbm, ⟨23, _⟩ => ⟨S600000, .i32⟩
  | .hbm, ⟨24, _⟩ => ⟨S600000x1, .i32⟩
  | .hbm, ⟨25, _⟩ => ⟨S600000x128, .f32⟩
  | .hbm, ⟨26, _⟩ => ⟨S1x128, .f32⟩
  | .hbm, ⟨27, _⟩ => ⟨S600000x128, .f32⟩
  | .hbm, ⟨28, _⟩ => ⟨S_, .f32⟩
  | .hbm, ⟨29, _⟩ => ⟨S100000x128, .f32⟩
  | .hbm, ⟨30, _⟩ => ⟨S600000x1, .i32⟩
  | .hbm, ⟨31, _⟩ => ⟨S100000x128, .f32⟩
  | .hbm, ⟨32, _⟩ => ⟨S_, .f32⟩
  | .hbm, ⟨33, _⟩ => ⟨S_, .f32⟩
  | .hbm, ⟨34, _⟩ => ⟨S1x128, .f32⟩
  | .hbm, ⟨35, _⟩ => ⟨S1x128, .f32⟩
  | .hbm, ⟨36, _⟩ => ⟨S1x128, .f32⟩
  | .hbm, ⟨37, _⟩ => ⟨S1x128, .f32⟩
  | .hbm, ⟨38, _⟩ => ⟨S1x128, .f32⟩
  | .hbm, ⟨39, _⟩ => ⟨S100000x128, .f32⟩
  | .local _ .vmem, ⟨0, _⟩ => ⟨S6000x128, .f32⟩
  | .local _ .vmem, ⟨1, _⟩ => ⟨S6000x128, .f32⟩
  | .local _ .vmem, ⟨2, _⟩ => ⟨S6000x6, .f32⟩
  | .local _ .vmem, ⟨3, _⟩ => ⟨S6000x6, .f32⟩
  | .local _ .vmem, ⟨4, _⟩ => ⟨S6x128, .f32⟩
  | .local _ .vmem, ⟨5, _⟩ => ⟨S1x128, .f32⟩
  | .local _ .vmem, ⟨6, _⟩ => ⟨S6000x128, .f32⟩
  | .local _ .vmem, ⟨7, _⟩ => ⟨S6000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S1x128, .f32⟩
  | .local _ .vmem, ⟨13, _⟩ => ⟨S128x128, .f32⟩
  | .local _ .vmem, ⟨14, _⟩ => ⟨S1x128, .f32⟩
  | .local _ .vmem, ⟨15, _⟩ => ⟨S128x128, .f32⟩
  | .local _ .vmem, ⟨16, _⟩ => ⟨S1x128, .f32⟩
  | .local _ .vmem, ⟨17, _⟩ => ⟨S1x128, .f32⟩
  | .local _ .vmem, ⟨18, _⟩ => ⟨S1x128, .f32⟩
  | .local _ .vmem, ⟨19, _⟩ => ⟨S5000x128, .f32⟩
  | .local _ .vmem, ⟨20, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_1 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg7_0 : Ref sig .tc := ⟨.vmem, 17, rfl⟩
abbrev cc1_stg8_0 : Ref sig .tc := ⟨.vmem, 18, rfl⟩
abbrev cc1_stg9_0 : Ref sig .tc := ⟨.vmem, 19, rfl⟩
abbrev cc1_stg9_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem7_0 : DmaSem sig := 17
abbrev cc1_sem8_0 : DmaSem sig := 18
abbrev cc1_sem9_0 : DmaSem sig := 19
abbrev cc1_sem9_1 : DmaSem sig := 20

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6000x6 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S6x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S6000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S5000x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  shapeCasts_S128_S1x128 : S128.ShapeCasts S1x128
  inb_S6000x6_S6000x6_0_0 : ∀ a, (![0, 0] : Fin 2 → Nat) a + S6000x6.size a ≤ S6000x6.size a
  h_S6000x6 : 0 < S6000x6.numel
  bitsLt_bf16_f32 : FTy.bits .bf16 < FTy.bits .f32
  inb_S6x128_S6x128_0_0 : ∀ a, (![0, 0] : Fin 2 → Nat) a + S6x128.size a ≤ S6x128.size a
  h_S6x128 : 0 < S6x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S6000x128 : S1x128.Broadcasts S6000x128
  inb_S6000x128_S6000x128_0_0 : ∀ a, (![0, 0] : Fin 2 → Nat) a + S6000x128.size a ≤ S6000x128.size a
  h_S6000x128 : 0 < S6000x128.numel
  shapeCasts_S6000x128_S6000x128 : S6000x128.ShapeCasts S6000x128
  bcast_S_S100000x128 : S_.BroadcastsInDim S100000x128 (![] : Fin 0 → Fin S100000x128.rank)
  bcast_S_S1x128 : S_.BroadcastsInDim S1x128 (![] : Fin 0 → Fin S1x128.rank)
  inb_S5000x128_S5000x128_0_0 : ∀ a, (![0, 0] : Fin 2 → Nat) a + S5000x128.size a ≤ S5000x128.size a
  h_S5000x128 : 0 < S5000x128.numel
  broadcasts_S1x128_S5000x128 : S1x128.Broadcasts S5000x128
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  reduces_S5000x128_S5000 : S5000x128.Reduces [1] S5000
  shapeCasts_S5000_S5000x1 : S5000.ShapeCasts S5000x1
  broadcasts_S5000x1_S5000x128 : S5000x1.Broadcasts S5000x128
  gather_S100000x128_S600000x1_S600000x128_1_0_n_n_0_1_1128_wf : GatherDims.WF S100000x128 S600000x1 S600000x128 [1] [0] [] [0] [] 1 ![1, 128]
  dot_S6000x6_S6x128_S6000x128_1_0_0_1_n_n_wf : DotDims.WF S6000x6 S6x128 S6000x128 [1] [0] [0] [1] [] []
  scatter_S100000x128_S600000x1_S600000x128_1_0_0_1_wf : ScatterDims.WF S100000x128 S600000x1 S600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6000x128.size a ≤ S600000x128.size a
  hwx0_0 : ∀ i : grid0.Coords, EltTy.bits .f32 = 32 ∨ (Rect.block (s := S600000x128) S6000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6000x6.size a ≤ S600000x6.size a
  hwx0_1 : ∀ i : grid0.Coords, EltTy.bits .f32 = 32 ∨ (Rect.block (s := S600000x6) S6000x6.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S6x128.size a ≤ S6x128.size a
  hwx0_2 : ∀ i : grid0.Coords, EltTy.bits .f32 = 32 ∨ (Rect.block (s := S6x128) S6x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S6000x128.size a ≤ S600000x128.size a
  hwx0_4 : ∀ i : grid0.Coords, EltTy.bits .f32 = 32 ∨ (Rect.block (s := S600000x128) S6000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x128.size a ≤ S1x128.size a
  hwx1_8 : ∀ i : grid1.Coords, EltTy.bits .f32 = 32 ∨ (Rect.block (s := S1x128) S1x128.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S5000x128.size a ≤ S100000x128.size a
  hwx1_9 : ∀ i : grid1.Coords, EltTy.bits .f32 = 32 ∨ (Rect.block (s := S100000x128) S5000x128.size (cc1_transform_9 i) (hinb1_9 i)).WholeWords (EltTy.packing .f32)

variable [Facts₀]

def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def dot_S6000x6_S6x128_S6000x128_1_0_0_1_n_n : DotDims S6000x6 S6x128 S6000x128 where
  lhsContracting := [1]
  rhsContracting := [0]
  lhsNonContracting := [0]
  rhsNonContracting := [1]
  lhsBatch := []
  rhsBatch := []
  wf := dot_S6000x6_S6x128_S6000x128_1_0_0_1_n_n_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v10) S6000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S6000x6.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S6x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v12) S6000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v17) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v18) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg9) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v19) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v20) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v21) S1x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v22) S5000x128.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x600000 : Shape := ⟨2, ![2, 600000]⟩
abbrev S600000x6 : Shape := ⟨2, ![600000, 6]⟩
abbrev S100000 : Shape := ⟨1, ![100000]⟩
abbrev S6x128 : Shape := ⟨2, ![6, 128]⟩
abbrev S128 : Shape := ⟨1, ![128]⟩
abbrev S_ : Shape := ⟨0, ![]⟩
abbrev S128x128 : Shape := ⟨2, ![128, 128]⟩
abbrev S1x600000 : Shape := ⟨2, ![1, 600000]⟩
abbrev S600000 : Shape := ⟨1, ![600000]⟩
abbrev S600000x128 : Shape := ⟨2, ![600000, 128]⟩
abbrev S1x128 : Shape := ⟨2, ![1, 128]⟩
abbrev S600000x1 : Shape := ⟨2, ![600000, 1]⟩
abbrev S100000x1 : Shape := ⟨2, ![100000, 1]⟩

abbrev nBuf : Space → Nat
  | .hbm => 101
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x600000, .i32⟩
  | .hbm, ⟨2, _⟩ => ⟨S600000x6, .f32⟩
  | .hbm, ⟨3, _⟩ => ⟨S100000, .i32⟩
  | .hbm, ⟨4, _⟩ => ⟨S6x128, .f32⟩
  | .hbm, ⟨5, _⟩ => ⟨S128, .f32⟩
  | .hbm, ⟨6, _⟩ => ⟨S_, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128, .f32⟩
  | .hbm, ⟨12, _⟩ => ⟨S128, .f32⟩
  | .hbm, ⟨13, _⟩ => ⟨S1x600000, .i32⟩
  | .hbm, ⟨14, _⟩ => ⟨S600000, .i32⟩
  | .hbm, ⟨15, _⟩ => ⟨S1x600000, .i32⟩
  | .hbm, ⟨16, _⟩ => ⟨S600000, .i32⟩
  | .hbm, ⟨17, _⟩ => ⟨S600000x128, .f32⟩
  | .hbm, ⟨18, _⟩ => ⟨S1x128, .f32⟩
  | .hbm, ⟨19, _⟩ => ⟨S600000x128, .f32⟩
  | .hbm, ⟨20, _⟩ => ⟨S600000x128, .f32⟩
  | .hbm, ⟨21, _⟩ => ⟨S_, .i32⟩
  | .hbm, ⟨22, _⟩ => ⟨S600000, .i32⟩
  | .hbm, ⟨23, _⟩ => ⟨S600000, .i1⟩
  | .hbm, ⟨24, _⟩ => ⟨S_, .i32⟩
  | .hbm, ⟨25, _⟩ => ⟨S600000, .i32⟩
  | .hbm, ⟨26, _⟩ => ⟨S600000, .i32⟩
  | .hbm, ⟨27, _⟩ => ⟨S600000, .i32⟩
  | .hbm, ⟨28, _⟩ => ⟨S600000x1, .i32⟩
  | .hbm, ⟨29, _⟩ => ⟨S600000x128, .f32⟩
  | .hbm, ⟨30, _⟩ => ⟨S600000x128, .f32⟩
  | .hbm, ⟨31, _⟩ => ⟨S_, .f32⟩
  | .hbm, ⟨32, _⟩ => ⟨S600000x128, .f32⟩
  | .hbm, ⟨33, _⟩ => ⟨S600000x128, .f32⟩
  | .hbm, ⟨34, _⟩ => ⟨S_, .f32⟩
  | .hbm, ⟨35, _⟩ => ⟨S100000x128, .f32⟩
  | .hbm, ⟨36, _⟩ => ⟨S600000x1, .i32⟩
  | .hbm, ⟨37, _⟩ => ⟨S100000x128, .f32⟩
  | .hbm, ⟨38, _⟩ => ⟨S_, .f32⟩
  | .hbm, ⟨39, _⟩ => ⟨S_, .f32⟩
  | .hbm, ⟨40, _⟩ => ⟨S100000x128, .f32⟩
  | .hbm, ⟨41, _⟩ => ⟨S100000x128, .f32⟩
  | .hbm, ⟨42, _⟩ => ⟨S100000x128, .f32⟩
  | .hbm, ⟨43, _⟩ => ⟨S100000x128, .f32⟩
  | .hbm, ⟨44, _⟩ => ⟨S1x128, .f32⟩
  | .hbm, ⟨45, _⟩ => ⟨S100000x128, .f32⟩
  | .hbm, ⟨46, _⟩ => ⟨S100000x128, .f32⟩
  | .hbm, ⟨47, _⟩ => ⟨S_, .f32⟩
  | .hbm, ⟨48, _⟩ => ⟨S100000x128, .f32⟩
  | .hbm, ⟨49, _⟩ => ⟨S100000x128, .f32⟩
  | .hbm, ⟨50, _⟩ => ⟨S100000x128, .f32⟩
  | .hbm, ⟨51, _⟩ => ⟨S1x128, .f32⟩
  | .hbm, ⟨52, _⟩ => ⟨S100000x128, .f32⟩
  | .hbm, ⟨53, _⟩ => ⟨S100000x128, .f32⟩
  | .hbm, ⟨54, _⟩ => ⟨S_, .f32⟩
  | .hbm, ⟨55, _⟩ => ⟨S100000, .f32⟩
  | .hbm, ⟨56, _⟩ => ⟨S100000x1, .f32⟩
  | .hbm, ⟨57, _⟩ => ⟨S_, .f32⟩
  | .hbm, ⟨58, _⟩ => ⟨S100000x1, .f32⟩
  | .hbm, ⟨59, _⟩ => ⟨S100000x1, .f32⟩
  | .hbm, ⟨60, _⟩ => ⟨S_, .i32⟩
  | .hbm, ⟨61, _⟩ => ⟨S_, .f32⟩
  | .hbm, ⟨62, _⟩ => ⟨S100000, .f32⟩
  | .hbm, ⟨63, _⟩ => ⟨S100000x1, .f32⟩
  | .hbm, ⟨64, _⟩ => ⟨S_, .f32⟩
  | .hbm, ⟨65, _⟩ => ⟨S100000x1, .f32⟩
  | .hbm, ⟨66, _⟩ => ⟨S100000x1, .f32⟩
  | .hbm, ⟨67, _⟩ => ⟨S100000x128, .f32⟩
  | .hbm, ⟨68, _⟩ => ⟨S100000x128, .f32⟩
  | .hbm, ⟨69, _⟩ => ⟨S100000x128, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S100000, .f32⟩
  | .hbm, ⟨75, _⟩ => ⟨S100000x1, .f32⟩
  | .hbm, ⟨76, _⟩ => ⟨S100000x1, .f32⟩
  | .hbm, ⟨77, _⟩ => ⟨S100000x1, .f32⟩
  | .hbm, ⟨78, _⟩ => ⟨S_, .f32⟩
  | .hbm, ⟨79, _⟩ => ⟨S_, .i1⟩
  | .hbm, ⟨80, _⟩ => ⟨S_, .f32⟩
  | .hbm, ⟨81, _⟩ => ⟨S_, .f32⟩
  | .hbm, ⟨82, _⟩ => ⟨S100000x1, .f32⟩
  | .hbm, ⟨83, _⟩ => ⟨S100000x1, .f32⟩
  | .hbm, ⟨84, _⟩ => ⟨S100000x128, .f32⟩
  | .hbm, ⟨85, _⟩ => ⟨S100000x128, .f32⟩
  | .hbm, ⟨86, _⟩ => ⟨S_, .f32⟩
  | .hbm, ⟨87, _⟩ => ⟨S100000x1, .f32⟩
  | .hbm, ⟨88, _⟩ => ⟨S100000x1, .f32⟩
  | .hbm, ⟨89, _⟩ => ⟨S100000x1, .f32⟩
  | .hbm, ⟨90, _⟩ => ⟨S100000x128, .f32⟩
  | .hbm, ⟨91, _⟩ => ⟨S100000x128, .f32⟩
  | .hbm, ⟨92, _⟩ => ⟨S1x128, .f32⟩
  | .hbm, ⟨93, _⟩ => ⟨S100000x128, .f32⟩
  | .hbm, ⟨94, _⟩ => ⟨S100000x128, .f32⟩
  | .hbm, ⟨95, _⟩ => ⟨S1x128, .f32⟩
  | .hbm, ⟨96, _⟩ => ⟨S100000x128, .f32⟩
  | .hbm, ⟨97, _⟩ => ⟨S100000x128, .f32⟩
  | .hbm, ⟨98, _⟩ => ⟨S_, .f32⟩
  | .hbm, ⟨99, _⟩ => ⟨S100000x128, .f32⟩
  | .hbm, ⟨100, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_c : Ref sig .tc := ⟨.hbm, 21, rfl⟩
abbrev main_v8 : Ref sig .tc := ⟨.hbm, 22, rfl⟩
abbrev main_v9 : Ref sig .tc := ⟨.hbm, 23, rfl⟩
abbrev main_c_0 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_call0_cst : Ref sig .tc := ⟨.hbm, 31, rfl⟩
abbrev main_call0_v0 : Ref sig .tc := ⟨.hbm, 32, rfl⟩
abbrev main_v16 : Ref sig .tc := ⟨.hbm, 33, rfl⟩
abbrev main_cst : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_cst_1 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_call1_cst : Ref sig .tc := ⟨.hbm, 47, rfl⟩
abbrev main_call1_v0 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_cst_2 : Ref sig .tc := ⟨.hbm, 54, rfl⟩
abbrev main_v33 : Ref sig .tc := ⟨.hbm, 55, rfl⟩
abbrev main_v34 : Ref sig .tc := ⟨.hbm, 56, rfl⟩
abbrev main_cst_3 : Ref sig .tc := ⟨.hbm, 57, rfl⟩
abbrev main_v35 : Ref sig .tc := ⟨.hbm, 58, rfl⟩
abbrev main_v36 : Ref sig .tc := ⟨.hbm, 59, rfl⟩
abbrev main_c_4 : Ref sig .tc := ⟨.hbm, 60, rfl⟩
abbrev main_call2_cst : Ref sig .tc := ⟨.hbm, 61, rfl⟩
abbrev main_call2_v0 : Ref sig .tc := ⟨.hbm, 62, rfl⟩
abbrev main_call2_v1 : Ref sig .tc := ⟨.hbm, 63, rfl⟩
abbrev main_call2_cst_0 : Ref sig .tc := ⟨.hbm, 64, rfl⟩
abbrev main_call2_v2 : Ref sig .tc := ⟨.hbm, 65, rfl⟩
abbrev main_call2_v3 : Ref sig .tc := ⟨.hbm, 66, rfl⟩
abbrev main_call2_v4 : Ref sig .tc := ⟨.hbm, 67, rfl⟩
abbrev main_call2_v5 : Ref sig .tc := ⟨.hbm, 68, rfl⟩
abbrev main_call2_v6 : Ref sig .tc := ⟨.hbm, 69, rfl⟩
abbrev main_call2_v7 : Ref sig .tc := ⟨.hbm, 70, rfl⟩
abbrev main_call2_cst_1 : Ref sig .tc := ⟨.hbm, 71, rfl⟩
abbrev main_call2_v8 : Ref sig .tc := ⟨.hbm, 72, rfl⟩
abbrev main_call2_cst_2 : Ref sig .tc := ⟨.hbm, 73, rfl⟩
abbrev main_call2_v9 : Ref sig .tc := ⟨.hbm, 74, rfl⟩
abbrev main_call2_v10 : Ref sig .tc := ⟨.hbm, 75, rfl⟩
abbrev main_call2_v11 : Ref sig .tc := ⟨.hbm, 76, rfl⟩
abbrev main_call2_v12 : Ref sig .tc := ⟨.hbm, 77, rfl⟩
abbrev main_call2_cst_3 : Ref sig .tc := ⟨.hbm, 78, rfl⟩
abbrev main_call2_v13 : Ref sig .tc := ⟨.hbm, 79, rfl⟩
abbrev main_call2_cst_4 : Ref sig .tc := ⟨.hbm, 80, rfl⟩
abbrev main_call2_call0_v0 : Ref sig .tc := ⟨.hbm, 81, rfl⟩
abbrev main_call2_call0_v1 : Ref sig .tc := ⟨.hbm, 82, rfl⟩
abbrev main_v37 : Ref sig .tc := ⟨.hbm, 83, rfl⟩
abbrev main_v38 : Ref sig .tc := ⟨.hbm, 84, rfl⟩
abbrev main_v39 : Ref sig .tc := ⟨.hbm, 85, rfl⟩
abbrev main_cst_5 : Ref sig .tc := ⟨.hbm, 86, rfl⟩
abbrev main_v40 : Ref sig .tc := ⟨.hbm, 87, rfl⟩
abbrev main_v41 : Ref sig .tc := ⟨.hbm, 88, rfl⟩
abbrev main_v42 : Ref sig .tc := ⟨.hbm, 89, rfl⟩
abbrev main_v43 : Ref sig .tc := ⟨.hbm, 90, rfl⟩
abbrev main_v44 : Ref sig .tc := ⟨.hbm, 91, rfl⟩
abbrev main_v45 : Ref sig .tc := ⟨.hbm, 92, rfl⟩
abbrev main_v46 : Ref sig .tc := ⟨.hbm, 93, rfl⟩
abbrev main_v47 : Ref sig .tc := ⟨.hbm, 94, rfl⟩
abbrev main_v48 : Ref sig .tc := ⟨.hbm, 95, rfl⟩
abbrev main_v49 : Ref sig .tc := ⟨.hbm, 96, rfl⟩
abbrev main_v50 : Ref sig .tc := ⟨.hbm, 97, rfl⟩
abbrev main_call3_cst : Ref sig .tc := ⟨.hbm, 98, rfl⟩
abbrev main_call3_v0 : Ref sig .tc := ⟨.hbm, 99, rfl⟩
abbrev main_v51 : Ref sig .tc := ⟨.hbm, 100, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S128_S1x128_1 : S128.BroadcastsInDim S1x128 (![1] : Fin 1 → Fin S1x128.rank)
  bcast_S1x128_S600000x128_0_1 : S1x128.BroadcastsInDim S600000x128 (![0, 1] : Fin 2 → Fin S600000x128.rank)
  bcast_S_S600000 : S_.BroadcastsInDim S600000 (![] : Fin 0 → Fin S600000.rank)
  bcast_S600000_S600000x1_0 : S600000.BroadcastsInDim S600000x1 (![0] : Fin 1 → Fin S600000x1.rank)
  bcast_S_S600000x128 : S_.BroadcastsInDim S600000x128 (![] : Fin 0 → Fin S600000x128.rank)
  bcast_S_S100000x128 : S_.BroadcastsInDim S100000x128 (![] : Fin 0 → Fin S100000x128.rank)
  bcast_S1x128_S100000x128_0_1 : S1x128.BroadcastsInDim S100000x128 (![0, 1] : Fin 2 → Fin S100000x128.rank)
  reducesTo_S100000x128_S100000_d1 : S100000x128.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  dot_S600000x6_S6x128_S600000x128_1_0_0_1_n_n_wf : DotDims.WF S600000x6 S6x128 S600000x128 [1] [0] [0] [1] [] []
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  dot_S100000x128_S128x128_S100000x128_1_0_0_1_n_n_wf : DotDims.WF S100000x128 S128x128 S100000x128 [1] [0] [0] [1] [] []

variable [Facts₀]

def dot_S600000x6_S6x128_S600000x128_1_0_0_1_n_n : DotDims S600000x6 S6x128 S600000x128 where
  lhsContracting := [1]
  rhsContracting := [0]
  lhsNonContracting := [0]
  rhsNonContracting := [1]
  lhsBatch := []
  rhsBatch := []
  wf := dot_S600000x6_S6x128_S600000x128_1_0_0_1_n_n_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.RefStages.lean ====
/-
  The reference computation, stage by stage, as functions of whole arrays.

  One graph layer on N = 100000 nodes with E = 600000 edges and 128 features:
    * every edge e reads the feature row of its source node (an index below zero counts from the end) and adds its own
      embedding, a 6 -> 128 linear map of the edge's attributes plus a bias row; the message is the positive part;
    * messages are summed into their target nodes;
    * every node row becomes (1 + eps) * x + (sum of incoming messages), goes through two dense layers with a rectifier
      between them, and is normalised along its 128 features: subtract the row mean, divide by the square root of the
      row's mean squared deviation plus 1e-5, scale by gamma, shift by beta; the result is the positive part.
  The mean squared deviation is computed as the reference program does: the sum of squares over 128 - 0 (the
  "degrees of freedom" correction, here zero, converted from an integer), kept only if that divisor is positive.

  Each function below is one stretch of the program's operations, over the same side conditions and literal words.
-/
import proofs.«104617_j74113955660246_1_alg».proof.ReferenceIdeal

noncomputable section

namespace Cert.ReferenceIdeal.Stages

open Idealize.ShloMosaic Cert.ReferenceIdeal
open Cert.ReferenceIdeal.Facts₀ Cert.ReferenceIdeal.Facts

variable {F : FTy → Type} [FloatOps F] [Cert.ReferenceIdeal.Facts]

/-! ## Edge indices -/

/-- Row 0 of the 2 x E edge list: the source node of every edge. -/
def srcRow (ei : IVec S2x600000 32) : IVec S600000 32 :=
  shapeCast S600000 (extractStridedSlice S1x600000 ![0, 0] ei slices_S2x600000_S1x600000_0_0) shapeCasts_S1x600000_S600000

/-- Row 1 of the edge list: the target node of every edge. -/
def dstRow (ei : IVec S2x600000 32) : IVec S600000 32 :=
  shapeCast S600000 (extractStridedSlice S1x600000 ![1, 0] ei slices_S2x600000_S1x600000_1_0) shapeCasts_S1x600000_S600000

/-- An index below zero counts from the end: N is added to it. -/
def wrapIdx (s : IVec S600000 32) : IVec S600000 32 :=
  select (cmpi .slt s (broadcastInDim S600000 ![] bcast_S_S600000 (constantI S_ 32 0#32)))
    (addi s (broadcastInDim S600000 ![] bcast_S_S600000 (constantI S_ 32 100000#32))) s

/-- An index vector as an E x 1 column. -/
def idxCol (s : IVec S600000 32) : IVec S600000x1 32 :=
  broadcastInDim S600000x1 ![0] bcast_S600000_S600000x1_0 s

/-- The feature row of every edge's source node. -/
def gathered (x : FVec F S100000x128 .f32) (ei : IVec S2x600000 32) : FVec F S600000x128 .f32 :=
  Host.gather gather_S100000x128_S600000x1_S600000x128_1_0_n_n_0_1_1128 x (idxCol (wrapIdx (srcRow ei)))

/-! ## Rows and rectifiers -/

/-- A vector of 128 entries as a 1 x 128 row. -/
def asRow (b : FVec F S128 .f32) : FVec F S1x128 .f32 :=
  broadcastInDim S1x128 ![1] bcast_S128_S1x128_1 b

/-- The positive part of an E x 128 array. -/
def posE (a : FVec F S600000x128 .f32) : FVec F S600000x128 .f32 :=
  maximumf a (broadcastInDim S600000x128 ![] bcast_S_S600000x128 (constant S_ .f32 0x00000000#32))

/-- The positive part of an N x 128 array. -/
def posN (a : FVec F S100000x128 .f32) : FVec F S100000x128 .f32 :=
  maximumf a (broadcastInDim S100000x128 ![] bcast_S_S100000x128 (constant S_ .f32 0x00000000#32))

/-! ## Messages and their sums -/

/-- The message of every edge: the positive part of (source row + (attributes times W_e + bias row)). -/
def msg (xg : FVec F S600000x128 .f32) (ea : FVec F S600000x6 .f32) (We : FVec F S6x128 .f32) (ber : FVec F S1x128 .f32) :
    FVec F S600000x128 .f32 :=
  posE (addf xg (addf (Host.dotGeneral dot_S600000x6_S6x128_S600000x128_1_0_0_1_n_n none ea We)
    (broadcastInDim S600000x128 ![0, 1] bcast_S1x128_S600000x128_0_1 ber)))

/-- The messages summed into their target nodes, from zero. -/
def aggregate (ei : IVec S2x600000 32) (mg : FVec F S600000x128 .f32) : FVec F S100000x128 .f32 :=
  Host.scatterAdd scatter_S100000x128_S600000x1_S600000x128_1_0_0_1
    (broadcastInDim S100000x128 ![] bcast_S_S100000x128 (constant S_ .f32 0x00000000#32)) (idxCol (dstRow ei)) mg

/-! ## The node update -/

/-- A dense layer on every row: rows times a 128 x 128 matrix, plus a bias row. -/
def dense (h : FVec F S100000x128 .f32) (W : FVec F S128x128 .f32) (r : FVec F S1x128 .f32) : FVec F S100000x128 .f32 :=
  addf (Host.dotGeneral dot_S100000x128_S128x128_S100000x128_1_0_0_1_n_n none h W)
    (broadcastInDim S100000x128 ![0, 1] bcast_S1x128_S100000x128_0_1 r)

/-- The sum of every row, as an N x 1 column. -/
def rowSum (a : FVec F S100000x128 .f32) : FVec F S100000x1 .f32 :=
  broadcastInDim S100000x1 ![0] bcast_S100000_S100000x1_0
    (Host.reduceAdd a (constant S_ .f32 0x00000000#32) reducesTo_S100000x128_S100000_d1 h_S_)

/-- The mean of every row: its sum over 128. -/
def rowMean (a : FVec F S100000x128 .f32) : FVec F S100000x1 .f32 :=
  Host.divf (rowSum a) (broadcastInDim S100000x1 ![] bcast_S_S100000x1 (constant S_ .f32 0x43000000#32))

/-- Every entry minus its row's mean. -/
def centred (a : FVec F S100000x128 .f32) : FVec F S100000x128 .f32 :=
  subf a (broadcastInDim S100000x128 ![0, 1] bcast_S100000x1_S100000x128_0_1 (rowMean a))

/-- The divisor of the variance: 128 minus the correction 0 (an integer, converted). -/
def dof : FVec F S_ .f32 :=
  subf (constant S_ .f32 0x43000000#32) (sitofp .f32 (constantI S_ 32 0#32))

/-- The mean squared deviation of every row: the sum of squared deviations over the divisor, kept where the divisor is
    positive (elsewhere a not-a-number word). -/
def variance (a : FVec F S100000x128 .f32) : FVec F S100000x1 .f32 :=
  select (broadcastInDim S100000x1 ![] bcast_S_S100000x1 (cmpf .ogt (dof (F := F)) (constant S_ .f32 0x00000000#32)))
    (Host.divf (rowSum (mulf (centred a) (centred a))) (broadcastInDim S100000x1 ![] bcast_S_S100000x1 (dof (F := F))))
    (broadcastInDim S100000x1 ![] bcast_S_S100000x1 (id (constant S_ .f32 0x7FC00000#32)))

/-- Normalisation along the features: deviation times the inverse square root of (variance + 1e-5), times the scale
    row, plus the shift row. -/
def layerNorm (a : FVec F S100000x128 .f32) (rg rb : FVec F S1x128 .f32) : FVec F S100000x128 .f32 :=
  addf (mulf (mulf (centred a)
      (broadcastInDim S100000x128 ![0, 1] bcast_S100000x1_S100000x128_0_1
        (Host.rsqrt (addf (variance a) (broadcastInDim S100000x1 ![] bcast_S_S100000x1 (constant S_ .f32 0x3727C5AC#32))))))
      (broadcastInDim S100000x128 ![0, 1] bcast_S1x128_S100000x128_0_1 rg))
    (broadcastInDim S100000x128 ![0, 1] bcast_S1x128_S100000x128_0_1 rb)

/-- The combined node input: scale * x + aggregated messages, the scale one number for the whole array. -/
def combine (sc : FVec F S_ .f32) (x ag : FVec F S100000x128 .f32) : FVec F S100000x128 .f32 :=
  addf (mulf (broadcastInDim S100000x128 ![] bcast_S_S100000x128 sc) x) ag

/-- The node update: two dense layers with a rectifier between them, normalisation, rectifier. -/
def node (x ag : FVec F S100000x128 .f32) (sc : FVec F S_ .f32) (W1 : FVec F S128x128 .f32) (r1 : FVec F S1x128 .f32)
    (W2 : FVec F S128x128 .f32) (r2 rg rb : FVec F S1x128 .f32) : FVec F S100000x128 .f32 :=
  posN (layerNorm (dense (posN (dense (combine sc x ag) W1 r1)) W2 r2) rg rb)

/-- The scale 1 + eps. -/
def onePlus (eps : FVec F S_ .f32) : FVec F S_ .f32 :=
  addf (constant S_ .f32 0x3F800000#32) eps

/-- The whole layer, from the argument arrays. -/
def layer (x : FVec F S100000x128 .f32) (ei : IVec S2x600000 32) (ea : FVec F S600000x6 .f32) (We : FVec F S6x128 .f32)
    (be : FVec F S128 .f32) (eps : FVec F S_ .f32) (W1 : FVec F S128x128 .f32) (b1 : FVec F S128 .f32)
    (W2 : FVec F S128x128 .f32) (b2 g bt : FVec F S128 .f32) : FVec F S100000x128 .f32 :=
  node x (aggregate ei (msg (gathered x ei) ea We (asRow be))) (onePlus eps) W1 (asRow b1) W2 (asRow b2) (asRow g) (asRow bt)

end Cert.ReferenceIdeal.Stages

end
-- ==== Proof.LibBlocks.lean ====
/-
  ROW BLOCKS OF A TWO-AXIS ARRAY, AND TWO BLOCK BODIES READ AT ONE ELEMENT.

  An array [N, b] is worked in blocks of n consecutive rows: block t holds rows n t … n t + n - 1, so row r lies in
  block r / n at local row r - n (r / n) (row_in_block). Two bodies of such a block, each set beside the whole-array
  operation it is a block of, at the extended reals:

  * bias and rectifier: element (p, q) of max(block + bias row, 0) is max(block (p, q) + bias (0, q), 0), and element
    (r, q) of max(array + bias row broadcast down the rows, 0) is max(array (r, q) + bias (0, q), 0): equal when block
    element (p, q) is array element (r, q) (biasRelu_apply);
  * matrix product: element (p, q) of a block [n, K] times a matrix [K, b], accumulated from zero, is the sum over k of
    block (p, k) matrix (k, q), and element (r, q) of the host's product of the array [N, K] with the matrix is the sum
    over k of array (r, k) matrix (k, q): equal when block row p is array row r (matmul_plain_apply,
    dotGeneral_plain_apply, matmul_eq_dotGeneral_apply). A change of float format on the way in is the identity here.

  Generic in the extents; a program's dimension numbers enter through an equation with the library's plain
  rows-by-columns record.
-/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.LibBlocks

open Idealize.ShloMosaic Idealize.ShloMosaic.ValueIdx

/-! ## Rows in blocks -/

/-- Row r of nb blocks of bs rows each lies in block r / bs, between that block's first row and its last. -/
theorem row_in_block {nb bs r : Nat} (hbs : 0 < bs) (hr : r < nb * bs) :
    r / bs < nb ∧ r / bs * bs ≤ r ∧ r < r / bs * bs + bs :=
  ⟨Nat.div_lt_of_lt_mul (by rwa [Nat.mul_comm] at hr), Nat.div_mul_le_self r bs, Nat.lt_div_mul_add hbs⟩

/-- The zero offsets of a two-axis block, as the constant function. -/
theorem off2_zero : (![0, 0] : Fin 2 → Nat) = fun _ => 0 := funext fun a => by fin_cases a <;> rfl

/-! ## Bias and rectifier -/

/-- Element (p, q) of max(block + bias row, 0) against element (r, q) of max(array + bias row, 0), the bias row
    broadcast down the rows on both sides: equal when block element (p, q) is array element (r, q) and the two bias
    rows are the same. -/
theorem biasRelu_apply {n N b : Nat}
    (hc0 : (⟨2, ![n, b]⟩ : Shape).ShapeCasts ⟨2, ![n, b]⟩) (hc1 : (⟨2, ![1, b]⟩ : Shape).ShapeCasts ⟨2, ![1, b]⟩)
    (hb : (⟨2, ![1, b]⟩ : Shape).Broadcasts ⟨2, ![n, b]⟩)
    (hbd : (⟨2, ![1, b]⟩ : Shape).BroadcastsInDim ⟨2, ![N, b]⟩ ![0, 1])
    (hz : (⟨0, ![]⟩ : Shape).BroadcastsInDim ⟨2, ![N, b]⟩ ![])
    (x0 : FVec Ideal ⟨2, ![n, b]⟩ .f32) (x1 : FVec Ideal ⟨2, ![1, b]⟩ .f32)
    (a : FVec Ideal ⟨2, ![N, b]⟩ .f32) (b2 : FVec Ideal ⟨2, ![1, b]⟩ .f32)
    (p : Fin n) (r : Fin N) (q : Fin b) (h0 : x0 (ix2 p q) = a (ix2 r q)) (h1 : x1 = b2) :
    maximumf (addf (shapeCast ⟨2, ![n, b]⟩ x0 hc0) (broadcastTo ⟨2, ![n, b]⟩ (shapeCast ⟨2, ![1, b]⟩ x1 hc1) hb))
        (broadcast ⟨2, ![n, b]⟩ (Scalar.ofBits (F := Ideal) .f32 0x00000000#32)) (ix2 p q)
      = maximumf (addf a (broadcastInDim ⟨2, ![N, b]⟩ ![0, 1] hbd b2))
        (broadcastInDim ⟨2, ![N, b]⟩ ![] hz (constant (F := Ideal) ⟨0, ![]⟩ .f32 0x00000000#32)) (ix2 r q) := by
  subst h1
  rw [maximumf_apply, maximumf_apply, addf_apply, addf_apply, shapeCast_self, shapeCast_self,
    broadcastTo_apply x1 hb (ix2 p q) (ix2 (0 : Fin 1) q) (fun a => by
      match a with
      | ⟨0, _⟩ => rfl
      | ⟨1, _⟩ =>
        show q.val = if b = 1 then 0 else q.val
        have := q.isLt
        split_ifs <;> omega),
    broadcastInDim_apply ![0, 1] hbd x1 (ix2 r q) (ix2 (0 : Fin 1) q) (fun a => by
      match a with
      | ⟨0, _⟩ => rfl
      | ⟨1, _⟩ =>
        show q.val = if b = 1 then 0 else q.val
        have := q.isLt
        split_ifs <;> omega),
    broadcastInDim_apply ![] hz (constant (F := Ideal) ⟨0, ![]⟩ .f32 0x00000000#32) (ix2 r q) ix0 (fun a => a.elim0),
    h0]
  rfl

/-! ## The matrix product -/

section Plain

variable {M K N : Nat}

/-- In a rows-by-columns product the left operand is read at the result's row and the contraction position … -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  refine Fin.ext ?_
  match a with
  | ⟨0, _⟩ =>
    show ((DotDims.plain M K N).lhsIdx (ix2 p q) _ 0).val = p.val
    unfold DotDims.lhsIdx
    rw [dif_neg (show ¬(0 : Fin (⟨2, ![M, K]⟩ : Shape).rank) ∈ (DotDims.plain M K N).lhsBatch from List.not_mem_nil),
      dif_pos (show (0 : Fin (⟨2, ![M, K]⟩ : Shape).rank) ∈ (DotDims.plain M K N).lhsNonContracting from List.mem_singleton.mpr rfl)]
    rfl
  | ⟨1, _⟩ =>
    exact ((DotDims.plain M K N).lhsIdx_val_of_single (cl := 1) rfl (ix2 p q) _).trans hk

/-- … and the right operand at the contraction position and the result's column. -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  refine Fin.ext ?_
  match a with
  | ⟨0, _⟩ =>
    exact ((DotDims.plain M K N).rhsIdx_val_of_single (cr := 0) rfl (ix2 p q) _).trans hk
  | ⟨1, _⟩ =>
    show ((DotDims.plain M K N).rhsIdx (ix2 p q) _ 1).val = q.val
    unfold DotDims.rhsIdx
    rw [dif_neg (show ¬(1 : Fin (⟨2, ![K, N]⟩ : Shape).rank) ∈ (DotDims.plain M K N).rhsBatch from List.not_mem_nil),
      dif_pos (show (1 : Fin (⟨2, ![K, N]⟩ : Shape).rank) ∈ (DotDims.plain M K N).rhsNonContracting from List.mem_singleton.mpr rfl)]
    rfl

/-- The matrix unit's product into a zero accumulator, at element (p, q): the sum over k of left (p, k) right (k, q). -/
theorem matmul_plain_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (q : Fin N) :
    FloatOps.matmul d prec l r (constant ⟨2, ![M, N]⟩ .f32 0x00000000#32) (ix2 p q) = ∑ k : Fin K, l (ix2 p k) * r (ix2 k q) := by
  subst hd
  rw [Ideal.matmul_constant_zero_apply, ← Equiv.sum_comp (contrEquiv1 (DotDims.plain M K N) K rfl rfl).symm]
  refine Finset.sum_congr rfl fun k _ => ?_
  rw [plain_lhsIdx, plain_rhsIdx]

/-- The host's product at element (p, q): the same sum. -/
theorem dotGeneral_plain_apply {φ₁ φ₂ : FTy} (d : DotDims ⟨2, ![M, K]⟩ ⟨2, ![K, N]⟩ ⟨2, ![M, N]⟩) (hd : d = DotDims.plain M K N)
    (prec : Option ContractPrecision) (sched : HostSchedule) (l : FVec Ideal ⟨2, ![M, K]⟩ φ₁) (r : FVec Ideal ⟨2, ![K, N]⟩ φ₂)
    (p : Fin M) (q : Fin N) :
    FloatOps.dotGeneral d prec sched l r (ix2 p q) = ∑ k : Fin K, l (ix2 p k) * r (ix2 k q) := by
  subst hd
  rw [Ideal.dotGeneral_apply, ← Equiv.sum_comp (contrEquiv1 (DotDims.plain M K N) K rfl rfl).symm]
  refine Finset.sum_congr rfl fun k _ => ?_
  rw [plain_lhsIdx, plain_rhsIdx]

end Plain

/-- Element (p, q) of a block [n, K] times a matrix [K, b] on the matrix unit, both narrowed on the way in and
    accumulated from zero, against element (r, q) of the host's product of an array [N, K] with a matrix: equal when
    block row p is array row r and the matrices are the same. -/
theorem matmul_eq_dotGeneral_apply {n N K b : Nat}
    (dk : DotDims ⟨2, ![n, K]⟩ ⟨2, ![K, b]⟩ ⟨2, ![n, b]⟩) (hdk : dk = DotDims.plain n K b)
    (dr : DotDims ⟨2, ![N, K]⟩ ⟨2, ![K, b]⟩ ⟨2, ![N, b]⟩) (hdr : dr = DotDims.plain N K b)
    (hc0 : (⟨2, ![n, K]⟩ : Shape).ShapeCasts ⟨2, ![n, K]⟩) (hc1 : (⟨2, ![K, b]⟩ : Shape).ShapeCasts ⟨2, ![K, b]⟩)
    (hlt : FTy.bf16.bits < FTy.f32.bits)
    (x0 : FVec Ideal ⟨2, ![n, K]⟩ .f32) (x1 : FVec Ideal ⟨2, ![K, b]⟩ .f32)
    (h : FVec Ideal ⟨2, ![N, K]⟩ .f32) (w : FVec Ideal ⟨2, ![K, b]⟩ .f32)
    (p : Fin n) (r : Fin N) (q : Fin b) (h0 : ∀ k : Fin K, x0 (ix2 p k) = h (ix2 r k)) (h1 : x1 = w) :
    matmul dk none (truncf .bf16 (shapeCast ⟨2, ![n, K]⟩ x0 hc0) hlt) (truncf .bf16 (shapeCast ⟨2, ![K, b]⟩ x1 hc1) hlt)
        (constant ⟨2, ![n, b]⟩ .f32 0x00000000#32) (ix2 p q)
      = Host.dotGeneral dr none h w (ix2 r q) := by
  subst h1
  rw [shapeCast_self, shapeCast_self]
  show FloatOps.matmul dk none _ _ _ _ = FloatOps.dotGeneral dr none .single h x1 (ix2 r q)
  rw [matmul_plain_apply dk hdk, dotGeneral_plain_apply dr hdr]
  refine Finset.sum_congr rfl fun k _ => ?_
  rw [truncf_apply, truncf_apply, h0 k]

end Cert.LibBlocks

end
-- ==== Proof.LibDenseLayer.lean ====
/-
  ONE DENSE LAYER ON A BLOCK OF ROWS, SET BESIDE THE SAME LAYER ON THE WHOLE ARRAY, READ AT ONE ENTRY.

  A dense layer sends a row x of K numbers to the row  q ↦ (Σ_k x_k · w(k, q)) + c(0, q),  optionally followed by the
  rectifier max(·, 0). It acts on every row by itself. So if row p of a block [n, K] is row r of an array [N, K], then
  entry (p, q) of the layer applied to the block is entry (r, q) of the layer applied to the array:

  * product_entry: the matrix unit's product into a zero accumulator, both operands narrowed on the way in, against
    the host's product (a change of float format is the identity on the extended reals, and both products are the
    sum over k of left (row, k) · right (k, q), in the same order);
  * hidden_entry: product, bias row broadcast down the rows, rectifier;
  * out_entry: product and bias row only.

  The bias is a 1 x b row on both sides; the block broadcasts it as a vector broadcast, the array along its two axes.
  Generic in the extents; a program's dimension numbers enter through an equation with the plain rows-by-columns
  record.
-/
import proofs.«104617_j74113955660246_1_alg».proof.Proof.LibBlocks

noncomputable section

open scoped BigOperators

namespace Cert.LibDenseLayer

open Idealize.ShloMosaic Idealize.ShloMosaic.ValueIdx

variable {n N K b : Nat}

/-- The product: entry (p, q) of block times matrix is entry (r, q) of array times matrix, when block row p is array
    row r. -/
theorem product_entry
    (dk : DotDims ⟨2, ![n, K]⟩ ⟨2, ![K, b]⟩ ⟨2, ![n, b]⟩) (hdk : dk = DotDims.plain n K b)
    (dr : DotDims ⟨2, ![N, K]⟩ ⟨2, ![K, b]⟩ ⟨2, ![N, b]⟩) (hdr : dr = DotDims.plain N K b)
    (hlt : FTy.bf16.bits < FTy.f32.bits)
    (X : FVec Ideal ⟨2, ![n, K]⟩ .f32) (XX : FVec Ideal ⟨2, ![N, K]⟩ .f32) (w : FVec Ideal ⟨2, ![K, b]⟩ .f32)
    (p : Fin n) (r : Fin N) (h0 : ∀ k : Fin K, X (ix2 p k) = XX (ix2 r k)) (q : Fin b) :
    matmul dk none (truncf .bf16 X hlt) (truncf .bf16 w hlt) (constant ⟨2, ![n, b]⟩ .f32 0x00000000#32) (ix2 p q)
      = Host.dotGeneral dr none XX w (ix2 r q) := by
  show FloatOps.matmul dk none _ _ _ _ = FloatOps.dotGeneral dr none .single XX w (ix2 r q)
  rw [Cert.LibBlocks.matmul_plain_apply dk hdk, Cert.LibBlocks.dotGeneral_plain_apply dr hdr]
  refine Finset.sum_congr rfl fun k _ => ?_
  rw [truncf_apply, truncf_apply, h0 k]

/-- The bias row broadcast down the rows of a block, at entry (p, q): the row's entry q. -/
theorem bias_block_entry
    (hc1 : (⟨2, ![1, b]⟩ : Shape).ShapeCasts ⟨2, ![1, b]⟩) (hb : (⟨2, ![1, b]⟩ : Shape).Broadcasts ⟨2, ![n, b]⟩)
    (c : FVec Ideal ⟨2, ![1, b]⟩ .f32) (p : Fin n) (q : Fin b) :
    broadcastTo ⟨2, ![n, b]⟩ (shapeCast ⟨2, ![1, b]⟩ c hc1) hb (ix2 p q) = c (ix2 (0 : Fin 1) q) := by
  rw [shapeCast_self]
  exact broadcastTo_apply c hb (ix2 p q) (ix2 (0 : Fin 1) q) (fun a => by
    match a with
    | ⟨0, _⟩ => rfl
    | ⟨1, _⟩ =>
      show q.val = if b = 1 then 0 else q.val
      have := q.isLt
      split_ifs <;> omega)

/-- The bias row broadcast along both axes of the array, at entry (r, q): the row's entry q. -/
theorem bias_array_entry
    (hbd : (⟨2, ![1, b]⟩ : Shape).BroadcastsInDim ⟨2, ![N, b]⟩ ![0, 1])
    (c : FVec Ideal ⟨2, ![1, b]⟩ .f32) (r : Fin N) (q : Fin b) :
    broadcastInDim ⟨2, ![N, b]⟩ ![0, 1] hbd c (ix2 r q) = c (ix2 (0 : Fin 1) q) :=
  broadcastInDim_apply ![0, 1] hbd c (ix2 r q) (ix2 (0 : Fin 1) q) (fun a => by
    match a with
    | ⟨0, _⟩ => rfl
    | ⟨1, _⟩ =>
      show q.val = if b = 1 then 0 else q.val
      have := q.isLt
      split_ifs <;> omega)

/-- Product and bias: entry (p, q) on the block is entry (r, q) on the array. -/
theorem out_entry
    (dk : DotDims ⟨2, ![n, K]⟩ ⟨2, ![K, b]⟩ ⟨2, ![n, b]⟩) (hdk : dk = DotDims.plain n K b)
    (dr : DotDims ⟨2, ![N, K]⟩ ⟨2, ![K, b]⟩ ⟨2, ![N, b]⟩) (hdr : dr = DotDims.plain N K b)
    (hlt : FTy.bf16.bits < FTy.f32.bits)
    (hc1 : (⟨2, ![1, b]⟩ : Shape).ShapeCasts ⟨2, ![1, b]⟩) (hb : (⟨2, ![1, b]⟩ : Shape).Broadcasts ⟨2, ![n, b]⟩)
    (hbd : (⟨2, ![1, b]⟩ : Shape).BroadcastsInDim ⟨2, ![N, b]⟩ ![0, 1])
    (X : FVec Ideal ⟨2, ![n, K]⟩ .f32) (XX : FVec Ideal ⟨2, ![N, K]⟩ .f32) (w : FVec Ideal ⟨2, ![K, b]⟩ .f32)
    (c : FVec Ideal ⟨2, ![1, b]⟩ .f32)
    (p : Fin n) (r : Fin N) (h0 : ∀ k : Fin K, X (ix2 p k) = XX (ix2 r k)) (q : Fin b) :
    addf (matmul dk none (truncf .bf16 X hlt) (truncf .bf16 w hlt) (constant ⟨2, ![n, b]⟩ .f32 0x00000000#32))
        (broadcastTo ⟨2, ![n, b]⟩ (shapeCast ⟨2, ![1, b]⟩ c hc1) hb) (ix2 p q)
      = addf (Host.dotGeneral dr none XX w) (broadcastInDim ⟨2, ![N, b]⟩ ![0, 1] hbd c) (ix2 r q) := by
  rw [addf_apply, addf_apply, product_entry dk hdk dr hdr hlt X XX w p r h0 q, bias_block_entry hc1 hb c p q,
    bias_array_entry hbd c r q]

/-- Product, bias and rectifier: entry (p, q) on the block is entry (r, q) on the array. -/
theorem hidden_entry
    (dk : DotDims ⟨2, ![n, K]⟩ ⟨2, ![K, b]⟩ ⟨2, ![n, b]⟩) (hdk : dk = DotDims.plain n K b)
    (dr : DotDims ⟨2, ![N, K]⟩ ⟨2, ![K, b]⟩ ⟨2, ![N, b]⟩) (hdr : dr = DotDims.plain N K b)
    (hlt : FTy.bf16.bits < FTy.f32.bits)
    (hc1 : (⟨2, ![1, b]⟩ : Shape).ShapeCasts ⟨2, ![1, b]⟩) (hb : (⟨2, ![1, b]⟩ : Shape).Broadcasts ⟨2, ![n, b]⟩)
    (hbd : (⟨2, ![1, b]⟩ : Shape).BroadcastsInDim ⟨2, ![N, b]⟩ ![0, 1])
    (hz : (⟨0, ![]⟩ : Shape).BroadcastsInDim ⟨2, ![N, b]⟩ ![])
    (X : FVec Ideal ⟨2, ![n, K]⟩ .f32) (XX : FVec Ideal ⟨2, ![N, K]⟩ .f32) (w : FVec Ideal ⟨2, ![K, b]⟩ .f32)
    (c : FVec Ideal ⟨2, ![1, b]⟩ .f32)
    (p : Fin n) (r : Fin N) (h0 : ∀ k : Fin K, X (ix2 p k) = XX (ix2 r k)) (q : Fin b) :
    maximumf (addf (matmul dk none (truncf .bf16 X hlt) (truncf .bf16 w hlt) (constant ⟨2, ![n, b]⟩ .f32 0x00000000#32))
          (broadcastTo ⟨2, ![n, b]⟩ (shapeCast ⟨2, ![1, b]⟩ c hc1) hb))
        (broadcast ⟨2, ![n, b]⟩ (Scalar.ofBits (F := Ideal) .f32 0x00000000#32)) (ix2 p q)
      = maximumf (addf (Host.dotGeneral dr none XX w) (broadcastInDim ⟨2, ![N, b]⟩ ![0, 1] hbd c))
        (broadcastInDim ⟨2, ![N, b]⟩ ![] hz (constant (F := Ideal) ⟨0, ![]⟩ .f32 0x00000000#32)) (ix2 r q) := by
  rw [maximumf_apply, maximumf_apply, out_entry dk hdk dr hdr hlt hc1 hb hbd X XX w c p r h0 q,
    broadcastInDim_apply ![] hz (constant (F := Ideal) ⟨0, ![]⟩ .f32 0x00000000#32) (ix2 r q) ix0 (fun a => a.elim0)]
  rfl

end Cert.LibDenseLayer

end
-- ==== Proof.EdgeEntry.lean ====
/-
  The edge kernel's block, read at one entry, beside the reference's message array.

  A block holds 6000 consecutive edges. Entry (p, q) of what the body stores is
      max( xg(p, q) + ( sum_k ea(p, k) * W_e(k, q) + b_e(0, q) ), 0 ),
  the product taken on the matrix unit from a zero accumulator with both operands narrowed on the way in, which
  changes nothing over the extended reals. The reference's message array at (r, q) is the same expression of the
  whole arrays. So the two agree as soon as block row p is array row r.
-/
import proofs.«104617_j74113955660246_1_alg».proof.Proof.Gen.KernelIdeal.Frame
import proofs.«104617_j74113955660246_1_alg».proof.Proof.Gen.ReferenceIdeal
import proofs.«104617_j74113955660246_1_alg».proof.Proof.RefStages
import proofs.«104617_j74113955660246_1_alg».proof.Proof.LibDenseLayer

noncomputable section

namespace Cert.KernelIdeal.Blocks

open Idealize.ShloMosaic Idealize.ShloMosaic.ValueIdx
open Cert.KernelIdeal Cert.KernelIdeal.Gen

/-- The edge kernel's contraction is a plain rows-by-columns product. -/
theorem dotE_plain : dot_S6000x6_S6x128_S6000x128_1_0_0_1_n_n = DotDims.plain 6000 6 128 := rfl

/-- So is the reference's edge embedding. -/
theorem dotE_ref_plain :
    Cert.ReferenceIdeal.dot_S600000x6_S6x128_S600000x128_1_0_0_1_n_n = DotDims.plain 600000 6 128 := rfl

/-- Entry (p, q) of the stored block is entry (r, q) of the reference's messages, when block row p is array row r. -/
theorem edge_entry (x0 : Vec Ideal S6000x128 .f32) (x1 : Vec Ideal S6000x6 .f32) (x2 : Vec Ideal S6x128 .f32)
    (x3 : Vec Ideal S1x128 .f32)
    (XG : FVec Ideal Cert.ReferenceIdeal.S600000x128 .f32) (EA : FVec Ideal Cert.ReferenceIdeal.S600000x6 .f32)
    (We : FVec Ideal Cert.ReferenceIdeal.S6x128 .f32) (ber : FVec Ideal Cert.ReferenceIdeal.S1x128 .f32)
    (p : Fin 6000) (r : Fin 600000) (q : Fin 128)
    (h0 : x0 (ix2 p q) = XG (ix2 r q)) (h1 : ∀ k : Fin 6, x1 (ix2 p k) = EA (ix2 r k)) (h2 : x2 = We) (h3 : x3 = ber) :
    out0_4 (F := Ideal) x0 x1 x2 x3 (ix2 p q) = Cert.ReferenceIdeal.Stages.msg (F := Ideal) XG EA We ber (ix2 r q) := by
  subst h2 h3
  unfold out0_4
  rw [View.canon_unit_zero Cert.LibBlocks.off2_zero]
  simp only [View.ld_unit_zero (S := S6000x6) Cert.LibBlocks.off2_zero, View.ld_unit_zero (S := S6x128) Cert.LibBlocks.off2_zero,
    View.ld_unit_zero (S := S1x128) Cert.LibBlocks.off2_zero, View.ld_unit_zero (S := S6000x128) Cert.LibBlocks.off2_zero]
  unfold k0_pay1 Cert.ReferenceIdeal.Stages.msg Cert.ReferenceIdeal.Stages.posE
  rw [maximumf_apply, maximumf_apply, addf_apply, addf_apply, addf_apply, addf_apply, shapeCast_self, h0,
    Cert.LibDenseLayer.product_entry _ dotE_plain _ dotE_ref_plain bitsLt_bf16_f32 x1 EA x2 p r h1 q,
    Cert.LibDenseLayer.bias_block_entry shapeCasts_S1x128_S1x128 broadcasts_S1x128_S6000x128 x3 p q,
    Cert.LibDenseLayer.bias_array_entry Cert.ReferenceIdeal.Facts₀.bcast_S1x128_S600000x128_0_1 x3 r q,
    broadcastInDim_apply ![] Cert.ReferenceIdeal.Facts₀.bcast_S_S600000x128
      (constant (F := Ideal) Cert.ReferenceIdeal.S_ .f32 0x00000000#32) (ix2 r q) ix0 (fun a => a.elim0)]
  rfl

end Cert.KernelIdeal.Blocks

end
-- ==== Proof.EdgeArray.lean ====
/-
  The edge kernel's blocks, put together: the whole message array.

  The grid has 100 points; point t stores rows 6000 t … 6000 t + 5999 of the output array, computed from the same
  rows of the gathered source features and of the edge attributes and from the whole weight matrix and bias row,
  which every point reads in full. Entry by entry a stored block is the reference's message array read through the
  block's rectangle, and the 100 blocks tile the 600000 rows: row r lies in block r / 6000. So after the region
  the output array IS the reference's message function of the four arrays the region found.
-/
import proofs.«104617_j74113955660246_1_alg».proof.Proof.EdgeEntry
import proofs.«104617_j74113955660246_1_alg».proof.Proof.Gen.KernelIdeal.Points
import Idealize.ShloMosaic.Lib.Pipeline.Value

set_option maxRecDepth 16384

noncomputable section

namespace Cert.KernelIdeal.Blocks

open Idealize.ShloMosaic Idealize.ShloMosaic.TcCoe Idealize.ShloMosaic.ValueIdx Idealize.SL.Sem
open Cert.KernelIdeal Cert.KernelIdeal.Gen
open Idealize.ShloMosaic.Pipeline (Dat)

variable (V : (c : Dev nD) → (b : Ref sig .tc) → Buf (Elt Ideal) ((c : Thread nD τ).loc b))

/-! ## The blocks and arrays of region 0, at their literal types -/

abbrev xgBlk (c : Dev nD) (t : Fin cfg0.N) : Vec Ideal S6000x128 .f32 := iblk0 V c 0 t
abbrev eaBlk (c : Dev nD) (t : Fin cfg0.N) : Vec Ideal S6000x6 .f32 := iblk0 V c 1 t
abbrev weBlk (c : Dev nD) (t : Fin cfg0.N) : Vec Ideal S6x128 .f32 := iblk0 V c 2 t
abbrev beBlk (c : Dev nD) (t : Fin cfg0.N) : Vec Ideal S1x128 .f32 := iblk0 V c 3 t
abbrev xgArr (c : Dev nD) : FVec Ideal Cert.ReferenceIdeal.S600000x128 .f32 := V c main_v10
abbrev eaArr (c : Dev nD) : FVec Ideal Cert.ReferenceIdeal.S600000x6 .f32 := V c main_arg2
abbrev weArr (c : Dev nD) : FVec Ideal Cert.ReferenceIdeal.S6x128 .f32 := V c main_arg4
abbrev beArr (c : Dev nD) : FVec Ideal Cert.ReferenceIdeal.S1x128 .f32 := V c main_v11

/-- The index maps of region 0, decided over its 100 points: the row windows move with the point, the others stay. -/
theorem idx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

theorem t_lt0 (t : Fin cfg0.N) : t.val < 100 := lt_of_lt_of_eq t.isLt N_0

/-- Row 6000 t + p of an array of 600000 rows. -/
abbrev rowOf0 (t : Fin cfg0.N) (p : Fin 6000) : Fin 600000 := ⟨t.val * 6000 + p.val, by have := t_lt0 t; have := p.isLt; omega⟩

/-! ## The blocks read at an entry -/

theorem xgBlk_apply (c : Dev nD) (t : Fin cfg0.N) (p : Fin 6000) (q : Fin 128) :
    xgBlk V c t (ix2 p q) = xgArr V c (ix2 (rowOf0 t p) q) := by
  obtain ⟨e0, e1, -⟩ := idx0 t
  show V c main_v10 (((cfg0.win 0).blk t).view.emb (ix2 p q)) = V c main_v10 (ix2 (rowOf0 t p) q)
  refine congrArg _ (funext fun a => Fin.ext ?_)
  match a with
  | ⟨0, _⟩ => show win0_0.index t (0 : Fin 2) * 6000 + 1 * p.val = t.val * 6000 + p.val; omega
  | ⟨1, _⟩ => show win0_0.index t (1 : Fin 2) * 128 + 1 * q.val = q.val; omega

theorem eaBlk_apply (c : Dev nD) (t : Fin cfg0.N) (p : Fin 6000) (k : Fin 6) :
    eaBlk V c t (ix2 p k) = eaArr V c (ix2 (rowOf0 t p) k) := by
  obtain ⟨-, -, e0, e1, -⟩ := idx0 t
  show V c main_arg2 (((cfg0.win 1).blk t).view.emb (ix2 p k)) = V c main_arg2 (ix2 (rowOf0 t p) k)
  refine congrArg _ (funext fun a => Fin.ext ?_)
  match a with
  | ⟨0, _⟩ => show win0_1.index t (0 : Fin 2) * 6000 + 1 * p.val = t.val * 6000 + p.val; omega
  | ⟨1, _⟩ => show win0_1.index t (1 : Fin 2) * 6 + 1 * k.val = k.val; omega

theorem weBlk_eq (c : Dev nD) (t : Fin cfg0.N) : weBlk V c t = weArr V c := by
  obtain ⟨-, -, -, -, e0, e1, -⟩ := idx0 t
  funext y
  show V c main_arg4 (((cfg0.win 2).blk t).view.emb y) = V c main_arg4 y
  refine congrArg _ (funext fun a => Fin.ext ?_)
  match a with
  | ⟨0, _⟩ => show win0_2.index t (0 : Fin 2) * 6 + 1 * (y 0).val = (y 0).val; omega
  | ⟨1, _⟩ => show win0_2.index t (1 : Fin 2) * 128 + 1 * (y 1).val = (y 1).val; omega

theorem beBlk_eq (c : Dev nD) (t : Fin cfg0.N) : beBlk V c t = beArr V c := by
  obtain ⟨-, -, -, -, -, -, e0, e1, -⟩ := idx0 t
  funext y
  show V c main_v11 (((cfg0.win 3).blk t).view.emb y) = V c main_v11 y
  refine congrArg _ (funext fun a => Fin.ext ?_)
  match a with
  | ⟨0, _⟩ => show win0_3.index t (0 : Fin 2) * 1 + 1 * (y 0).val = (y 0).val; omega
  | ⟨1, _⟩ => show win0_3.index t (1 : Fin 2) * 128 + 1 * (y 1).val = (y 1).val; omega

/-! ## What a point writes back, and the whole array -/

/-- The reference's message array of what region 0 finds. -/
abbrev msgOf (c : Dev nD) : FVec Ideal Cert.ReferenceIdeal.S600000x128 .f32 :=
  Cert.ReferenceIdeal.Stages.msg (F := Ideal) (xgArr V c) (eaArr V c) (weArr V c) (beArr V c)

/-- Point t writes back block t of the message array. -/
theorem flushed0 (c : Dev nD) (t : Fin cfg0.N) :
    (dat0 V c).flushed 4 t = ((cfg0.win 4).blk t).view.read (Elt Ideal) (msgOf V c) := by
  show (cfg0.win 4).cut (grid0.coords t) ((dat0 V c).after 4 t) = _
  rw [after0_4]
  funext j
  obtain ⟨p, q, rfl⟩ : ∃ (p : Fin 6000) (q : Fin 128), j = ix2 p q := ⟨j 0, j 1, eq_ix2 j⟩
  obtain ⟨-, -, -, -, -, -, -, -, e0, e1⟩ := idx0 t
  have hemb : ((cfg0.win 4).blk t).view.emb (ix2 p q) = ix2 (rowOf0 t p) q := by
    refine funext fun a => Fin.ext ?_
    match a with
    | ⟨0, _⟩ => show win0_4.index t (0 : Fin 2) * 6000 + 1 * p.val = t.val * 6000 + p.val; omega
    | ⟨1, _⟩ => show win0_4.index t (1 : Fin 2) * 128 + 1 * q.val = q.val; omega
  show out0_4 (xgBlk V c t) (eaBlk V c t) (weBlk V c t) (beBlk V c t) (ix2 p q)
    = msgOf V c (((cfg0.win 4).blk t).view.emb (ix2 p q))
  rw [hemb]
  exact edge_entry (xgBlk V c t) (eaBlk V c t) (weBlk V c t) (beBlk V c t) (xgArr V c) (eaArr V c) (weArr V c) (beArr V c)
    p (rowOf0 t p) q (xgBlk_apply V c t p q) (fun k => eaBlk_apply V c t p k) (weBlk_eq V c t) (beBlk_eq V c t)

/-- An index of the output array is in point t's block iff each coordinate is in the block's range on its axis. -/
theorem mem_blk0 (t : Fin cfg0.N) (i : S600000x128.Idx) :
    i ∈ ((cfg0.win 4).blk t).view.set ↔ ∀ a : Fin 2, win0_4.index t a * S6000x128.size a ≤ (i a).val
      ∧ (i a).val < win0_4.index t a * S6000x128.size a + S6000x128.size a := by
  show i ∈ ((View.whole main_v12).slice (win0_4.rect t)).set ↔ _
  rw [View.set_slice_whole, Rect.mem_set_unit]
  exact Iff.rfl

/-- After region 0 its output array is the reference's message array of what the region found. -/
theorem edge_array (c : Dev nD) : (dat0 V c).arrAt 4 cfg0.N = msgOf V c :=
  (dat0 V c).arrAt_eq_of_cover 4 (msgOf V c) (fun t _ => flushed0 V c t) fun i => by
    have hi0 : (i 0).val < 600000 := (i 0).isLt
    have hi1 : (i 1).val < 128 := (i 1).isLt
    let t : Fin cfg0.N := ⟨(i 0).val / 6000, by rw [show cfg0.N = 100 from N_0]; omega⟩
    obtain ⟨-, -, -, -, -, -, -, -, e0, e1⟩ := idx0 t
    have ht : t.val = (i 0).val / 6000 := rfl
    refine ⟨t, flush0_4 t, ?_⟩
    rw [mem_blk0]
    intro a
    match a with
    | ⟨0, _⟩ => show win0_4.index t (0 : Fin 2) * 6000 ≤ (i 0).val ∧ (i 0).val < win0_4.index t (0 : Fin 2) * 6000 + 6000; omega
    | ⟨1, _⟩ => show win0_4.index t (1 : Fin 2) * 128 ≤ (i 1).val ∧ (i 1).val < win0_4.index t (1 : Fin 2) * 128 + 128; omega

end Cert.KernelIdeal.Blocks

end
-- ==== Proof.LibLayerNorm.lean ====
/-
  NORMALISATION OF EVERY ROW ALONG ITS ENTRIES, ON A BLOCK OF ROWS AND ON THE WHOLE ARRAY, READ AT ONE ENTRY.

  For a row f of b numbers, a divisor W and a small number E, put
      mean f   = (Σ_k f_k) / W,
      dev f q  = f_q − mean f,
      var f    = (Σ_k (dev f k)²) / W,
      norm f q = max( dev f q · rsqrt(var f + E) · g + c , 0 ),
  with the division and the inverse square root of the extended reals. The normalisation acts on every row by itself.

  On a block [n, b] the row sums are lane sums over the second axis, reshaped from a vector of n entries to an n x 1
  column and broadcast back along the rows; the scale row g and the shift row c are 1 x b rows broadcast down the
  rows (blockDev, blockVar, blockNorm). On an array [N, b] the row sums are the host's sums from zero, placed as an
  N x 1 column and broadcast along both axes; the variance divides by a number d given as a scalar and is kept only
  where d is positive (arrayDev, arrayVar, arrayNorm). When d is the divisor W and W is positive, entry (p, q) of the
  block form is norm (row p) q and entry (r, q) of the array form is norm (row r) q; so the two agree as soon as block
  row p is array row r (norm_entry). The scalar W − (the integer 0, converted) is W (dof_apply).

  Generic in the extents and in the words of W, E and the value kept where the divisor is not positive.
-/
import Idealize.ShloMosaic.PureOps.Ideal
import Idealize.ShloMosaic.PureOps.Ideal.Laws
import Idealize.ShloMosaic.Lib.ValueIdx
import Idealize.ShloMosaic.Lib.Pipeline.Value
import Idealize.ShloMosaic.Lib.IdealHost

noncomputable section

open scoped BigOperators

namespace Cert.LibLayerNorm

open Idealize.ShloMosaic Idealize.ShloMosaic.ValueIdx

variable {n N b : Nat}

/-! ## The mathematics on one row -/

/-- The mean of a row: its sum over the divisor. -/
def rowMean (W : EReal) (f : Fin b → EReal) : EReal := Ideal.div (∑ k : Fin b, f k) W

/-- An entry minus the row's mean. -/
def rowDev (W : EReal) (f : Fin b → EReal) (q : Fin b) : EReal := f q - rowMean W f

/-- The mean squared deviation of a row. -/
def rowVar (W : EReal) (f : Fin b → EReal) : EReal := Ideal.div (∑ k : Fin b, rowDev W f k * rowDev W f k) W

/-- The normalised, scaled, shifted and rectified entry. -/
def rowNorm (W E : EReal) (f : Fin b → EReal) (g c : EReal) (q : Fin b) : EReal :=
  max (rowDev W f q * Ideal.rsqrt (rowVar W f + E) * g + c) 0

/-! ## Sums of rows as columns, and columns read along the rows -/

/-- The lane sum over the second axis of a block, reshaped to a column, at row p: the sum of row p. -/
theorem laneSum_col (A : FVec Ideal ⟨2, ![n, b]⟩ .f32) (acc : BitVec 32)
    (h : (⟨2, ![n, b]⟩ : Shape).Reduces [1] ⟨1, ![n]⟩) (hφ : FKind.Formats .f32) (hacc : acc = FKind.add.neutral .f32 hφ)
    (hc : (⟨1, ![n]⟩ : Shape).ShapeCasts ⟨2, ![n, 1]⟩) (p : Fin n) :
    shapeCast ⟨2, ![n, 1]⟩ (multiReduction .add [1] ⟨1, ![n]⟩ A acc h hφ hacc) hc (ix2 p (0 : Fin 1))
      = ∑ k : Fin b, A (ix2 p k) := by
  rw [shapeCast_apply _ hc (ix2 p (0 : Fin 1)) (ix1 p) (by
    rw [Shape.rowMajor_val_two, Shape.rowMajor_val_one]
    show p.val = p.val * 1 + 0
    omega)]
  refine (Ideal.multiReduction_add_single A acc h hφ hacc (ix1 p)).trans ?_
  exact Finset.sum_congr rfl fun k _ => congrArg A (funext fun d => Fin.ext (by
    match d with | ⟨0, _⟩ => rfl | ⟨1, _⟩ => rfl))

/-- The host's sum over the second axis of an array from zero, placed as a column, at row r: the sum of row r. -/
theorem hostSum_col (B : FVec Ideal ⟨2, ![N, b]⟩ .f32)
    (hr : (⟨2, ![N, b]⟩ : Shape).ReducesTo [1] ⟨1, ![N]⟩) (hu : 0 < (⟨0, ![]⟩ : Shape).numel)
    (hbc : (⟨1, ![N]⟩ : Shape).BroadcastsInDim ⟨2, ![N, 1]⟩ ![0]) (r : Fin N) :
    broadcastInDim ⟨2, ![N, 1]⟩ ![0] hbc
        (Host.reduceAdd B (constant (F := Ideal) ⟨0, ![]⟩ .f32 0x00000000#32) hr hu) (ix2 r (0 : Fin 1))
      = ∑ k : Fin b, B (ix2 r k) := by
  have h : (⟨2, ![N, b]⟩ : Shape).Reduces [1] ⟨1, ![N]⟩ := ⟨hr.1, Nat.one_pos, hr.2⟩
  rw [broadcastInDim_apply ![0] hbc _ (ix2 r (0 : Fin 1)) (ix1 r) (fun a => by
    match a with
    | ⟨0, _⟩ =>
      show r.val = if N = 1 then 0 else r.val
      have := r.isLt
      split_ifs <;> omega)]
  show Ideal.hostReduceAdd hr B (Ideal.ofBits .f32 0x00000000#32) (ix1 r) = _
  rw [Ideal.hostReduceAdd_single hr h, Ideal.ofBits_zero_f32, zero_add]
  exact Finset.sum_congr rfl fun k _ => congrArg B (funext fun d => Fin.ext (by
    match d with | ⟨0, _⟩ => rfl | ⟨1, _⟩ => rfl))

/-- A column of a block broadcast along the rows, at (p, q): the column's entry p. -/
theorem col_block_entry {α : Type} (v : (⟨2, ![n, 1]⟩ : Shape).Idx → α)
    (hb : (⟨2, ![n, 1]⟩ : Shape).Broadcasts ⟨2, ![n, b]⟩) (p : Fin n) (q : Fin b) :
    broadcastTo ⟨2, ![n, b]⟩ v hb (ix2 p q) = v (ix2 p (0 : Fin 1)) :=
  broadcastTo_apply v hb (ix2 p q) (ix2 p (0 : Fin 1)) (fun a => by
    match a with
    | ⟨0, _⟩ =>
      show p.val = if n = 1 then 0 else p.val
      have := p.isLt
      split_ifs <;> omega
    | ⟨1, _⟩ => rfl)

/-- A column of an array broadcast along both axes, at (r, q): the column's entry r. -/
theorem col_array_entry {α : Type} (v : (⟨2, ![N, 1]⟩ : Shape).Idx → α)
    (hbd : (⟨2, ![N, 1]⟩ : Shape).BroadcastsInDim ⟨2, ![N, b]⟩ ![0, 1]) (r : Fin N) (q : Fin b) :
    broadcastInDim ⟨2, ![N, b]⟩ ![0, 1] hbd v (ix2 r q) = v (ix2 r (0 : Fin 1)) :=
  broadcastInDim_apply ![0, 1] hbd v (ix2 r q) (ix2 r (0 : Fin 1)) (fun a => by
    match a with
    | ⟨0, _⟩ =>
      show r.val = if N = 1 then 0 else r.val
      have := r.isLt
      split_ifs <;> omega
    | ⟨1, _⟩ => rfl)

/-- A 1 x b row broadcast down the rows of a block, at (p, q): the row's entry q. -/
theorem row_block_entry {α : Type} (hc1 : (⟨2, ![1, b]⟩ : Shape).ShapeCasts ⟨2, ![1, b]⟩)
    (hb : (⟨2, ![1, b]⟩ : Shape).Broadcasts ⟨2, ![n, b]⟩) (c : (⟨2, ![1, b]⟩ : Shape).Idx → α) (p : Fin n) (q : Fin b) :
    broadcastTo ⟨2, ![n, b]⟩ (shapeCast ⟨2, ![1, b]⟩ c hc1) hb (ix2 p q) = c (ix2 (0 : Fin 1) q) := by
  rw [shapeCast_self]
  exact broadcastTo_apply c hb (ix2 p q) (ix2 (0 : Fin 1) q) (fun a => by
    match a with
    | ⟨0, _⟩ => rfl
    | ⟨1, _⟩ =>
      show q.val = if b = 1 then 0 else q.val
      have := q.isLt
      split_ifs <;> omega)

/-- A 1 x b row broadcast along both axes of an array, at (r, q): the row's entry q. -/
theorem row_array_entry {α : Type} (hbd : (⟨2, ![1, b]⟩ : Shape).BroadcastsInDim ⟨2, ![N, b]⟩ ![0, 1])
    (c : (⟨2, ![1, b]⟩ : Shape).Idx → α) (r : Fin N) (q : Fin b) :
    broadcastInDim ⟨2, ![N, b]⟩ ![0, 1] hbd c (ix2 r q) = c (ix2 (0 : Fin 1) q) :=
  broadcastInDim_apply ![0, 1] hbd c (ix2 r q) (ix2 (0 : Fin 1) q) (fun a => by
    match a with
    | ⟨0, _⟩ => rfl
    | ⟨1, _⟩ =>
      show q.val = if b = 1 then 0 else q.val
      have := q.isLt
      split_ifs <;> omega)

/-! ## The divisor as the reference writes it -/

/-- The integer zero, converted, is zero; so a number minus it is the number. -/
theorem dof_apply (w : BitVec 32) (i : (⟨0, ![]⟩ : Shape).Idx) :
    subf (constant (F := Ideal) ⟨0, ![]⟩ .f32 w) (sitofp .f32 (constantI ⟨0, ![]⟩ 32 0#32)) i = Ideal.ofBits .f32 w := by
  show Ideal.ofBits .f32 w - (((0#32 : BitVec 32).toInt : ℝ) : EReal) = Ideal.ofBits .f32 w
  rw [BitVec.toInt_zero, Int.cast_zero, EReal.coe_zero, sub_zero]

/-! ## The block -/

section Block

variable (hred : (⟨2, ![n, b]⟩ : Shape).Reduces [1] ⟨1, ![n]⟩) (hφ : FKind.Formats .f32)
  (hacc : (0x00000000#32 : BitVec 32) = FKind.add.neutral .f32 hφ)
  (hcol : (⟨1, ![n]⟩ : Shape).ShapeCasts ⟨2, ![n, 1]⟩) (hbc : (⟨2, ![n, 1]⟩ : Shape).Broadcasts ⟨2, ![n, b]⟩)
  (hc1 : (⟨2, ![1, b]⟩ : Shape).ShapeCasts ⟨2, ![1, b]⟩) (hb1 : (⟨2, ![1, b]⟩ : Shape).Broadcasts ⟨2, ![n, b]⟩)

/-- Every entry of a block minus its row's mean. -/
abbrev blockDev (w : BitVec 32) (A : FVec Ideal ⟨2, ![n, b]⟩ .f32) : FVec Ideal ⟨2, ![n, b]⟩ .f32 :=
  subf A (broadcastTo ⟨2, ![n, b]⟩
    (divf (shapeCast ⟨2, ![n, 1]⟩ (multiReduction .add [1] ⟨1, ![n]⟩ A 0x00000000#32 hred hφ hacc) hcol)
      (broadcast ⟨2, ![n, 1]⟩ (Scalar.ofBits (F := Ideal) .f32 w))) hbc)

/-- The mean squared deviation of every row of a block, as a column. -/
abbrev blockVar (w : BitVec 32) (A : FVec Ideal ⟨2, ![n, b]⟩ .f32) : FVec Ideal ⟨2, ![n, 1]⟩ .f32 :=
  divf (shapeCast ⟨2, ![n, 1]⟩
      (multiReduction .add [1] ⟨1, ![n]⟩ (mulf (blockDev hred hφ hacc hcol hbc w A) (blockDev hred hφ hacc hcol hbc w A))
        0x00000000#32 hred hφ hacc) hcol)
    (broadcast ⟨2, ![n, 1]⟩ (Scalar.ofBits (F := Ideal) .f32 w))

/-- The normalised block: deviation times the inverse square root of (variance + E), times the scale row, plus the
    shift row, rectified. -/
abbrev blockNorm (w e : BitVec 32) (A : FVec Ideal ⟨2, ![n, b]⟩ .f32) (g c : FVec Ideal ⟨2, ![1, b]⟩ .f32) :
    FVec Ideal ⟨2, ![n, b]⟩ .f32 :=
  maximumf
    (addf
      (mulf
        (mulf (blockDev hred hφ hacc hcol hbc w A)
          (broadcastTo ⟨2, ![n, b]⟩
            (rsqrt (addf (blockVar hred hφ hacc hcol hbc w A) (broadcast ⟨2, ![n, 1]⟩ (Scalar.ofBits (F := Ideal) .f32 e)))) hbc))
        (broadcastTo ⟨2, ![n, b]⟩ (shapeCast ⟨2, ![1, b]⟩ g hc1) hb1))
      (broadcastTo ⟨2, ![n, b]⟩ (shapeCast ⟨2, ![1, b]⟩ c hc1) hb1))
    (broadcast ⟨2, ![n, b]⟩ (Scalar.ofBits (F := Ideal) .f32 0x00000000#32))

theorem blockDev_entry (w : BitVec 32) (A : FVec Ideal ⟨2, ![n, b]⟩ .f32) (p : Fin n) (q : Fin b) :
    blockDev hred hφ hacc hcol hbc w A (ix2 p q) = rowDev (Ideal.ofBits .f32 w) (fun k => A (ix2 p k)) q := by
  show subf A _ (ix2 p q) = _
  rw [subf_apply, col_block_entry, divf_apply, laneSum_col A _ hred hφ hacc hcol p]
  rfl

theorem blockVar_entry (w : BitVec 32) (A : FVec Ideal ⟨2, ![n, b]⟩ .f32) (p : Fin n) :
    blockVar hred hφ hacc hcol hbc w A (ix2 p (0 : Fin 1)) = rowVar (Ideal.ofBits .f32 w) (fun k => A (ix2 p k)) := by
  show divf _ _ (ix2 p (0 : Fin 1)) = _
  rw [divf_apply, laneSum_col _ _ hred hφ hacc hcol p]
  show Ideal.div (∑ k : Fin b, _) (Ideal.ofBits .f32 w) = Ideal.div _ _
  refine congrArg (fun s => Ideal.div s (Ideal.ofBits .f32 w)) (Finset.sum_congr rfl fun k _ => ?_)
  rw [mulf_apply, blockDev_entry hred hφ hacc hcol hbc w A p k]

theorem blockNorm_entry (w e : BitVec 32) (A : FVec Ideal ⟨2, ![n, b]⟩ .f32) (g c : FVec Ideal ⟨2, ![1, b]⟩ .f32)
    (p : Fin n) (q : Fin b) :
    blockNorm hred hφ hacc hcol hbc hc1 hb1 w e A g c (ix2 p q)
      = rowNorm (Ideal.ofBits .f32 w) (Ideal.ofBits .f32 e) (fun k => A (ix2 p k)) (g (ix2 (0 : Fin 1) q)) (c (ix2 (0 : Fin 1) q)) q := by
  show maximumf _ _ (ix2 p q) = _
  rw [maximumf_apply, addf_apply, mulf_apply, mulf_apply, blockDev_entry hred hφ hacc hcol hbc w A p q, col_block_entry,
    row_block_entry hc1 hb1 g p q, row_block_entry hc1 hb1 c p q]
  show max (_ * Ideal.rsqrt (blockVar hred hφ hacc hcol hbc w A (ix2 p (0 : Fin 1)) + Ideal.ofBits .f32 e) * _ + _) (Ideal.ofBits .f32 0x00000000#32) = _
  rw [blockVar_entry hred hφ hacc hcol hbc w A p, Ideal.ofBits_zero_f32]
  rfl

end Block

/-! ## The array -/

section Array

variable (hr : (⟨2, ![N, b]⟩ : Shape).ReducesTo [1] ⟨1, ![N]⟩) (hu : 0 < (⟨0, ![]⟩ : Shape).numel)
  (hcolA : (⟨1, ![N]⟩ : Shape).BroadcastsInDim ⟨2, ![N, 1]⟩ ![0])
  (hz1 : (⟨0, ![]⟩ : Shape).BroadcastsInDim ⟨2, ![N, 1]⟩ ![])
  (hbcA : (⟨2, ![N, 1]⟩ : Shape).BroadcastsInDim ⟨2, ![N, b]⟩ ![0, 1])
  (hbd : (⟨2, ![1, b]⟩ : Shape).BroadcastsInDim ⟨2, ![N, b]⟩ ![0, 1])
  (hz : (⟨0, ![]⟩ : Shape).BroadcastsInDim ⟨2, ![N, b]⟩ ![])

/-- The sum of every row of an array from zero, as a column. -/
abbrev arraySum (B : FVec Ideal ⟨2, ![N, b]⟩ .f32) : FVec Ideal ⟨2, ![N, 1]⟩ .f32 :=
  broadcastInDim ⟨2, ![N, 1]⟩ ![0] hcolA (Host.reduceAdd B (constant (F := Ideal) ⟨0, ![]⟩ .f32 0x00000000#32) hr hu)

/-- Every entry of an array minus its row's mean. -/
abbrev arrayDev (w : BitVec 32) (B : FVec Ideal ⟨2, ![N, b]⟩ .f32) : FVec Ideal ⟨2, ![N, b]⟩ .f32 :=
  subf B (broadcastInDim ⟨2, ![N, b]⟩ ![0, 1] hbcA
    (Host.divf (arraySum hr hu hcolA B) (broadcastInDim ⟨2, ![N, 1]⟩ ![] hz1 (constant (F := Ideal) ⟨0, ![]⟩ .f32 w))))

/-- The mean squared deviation of every row of an array, as a column: the sum of squares over the scalar d, kept where
    d is positive. -/
abbrev arrayVar (w : BitVec 32) (d : FVec Ideal ⟨0, ![]⟩ .f32) (junk : FVec Ideal ⟨2, ![N, 1]⟩ .f32)
    (B : FVec Ideal ⟨2, ![N, b]⟩ .f32) : FVec Ideal ⟨2, ![N, 1]⟩ .f32 :=
  select (broadcastInDim ⟨2, ![N, 1]⟩ ![] hz1 (cmpf .ogt d (constant (F := Ideal) ⟨0, ![]⟩ .f32 0x00000000#32)))
    (Host.divf (arraySum hr hu hcolA (mulf (arrayDev hr hu hcolA hz1 hbcA w B) (arrayDev hr hu hcolA hz1 hbcA w B)))
      (broadcastInDim ⟨2, ![N, 1]⟩ ![] hz1 d))
    junk

/-- The normalised array, rectified. -/
abbrev arrayNorm (w e : BitVec 32) (d : FVec Ideal ⟨0, ![]⟩ .f32) (junk : FVec Ideal ⟨2, ![N, 1]⟩ .f32)
    (B : FVec Ideal ⟨2, ![N, b]⟩ .f32) (g c : FVec Ideal ⟨2, ![1, b]⟩ .f32) : FVec Ideal ⟨2, ![N, b]⟩ .f32 :=
  maximumf
    (addf
      (mulf
        (mulf (arrayDev hr hu hcolA hz1 hbcA w B)
          (broadcastInDim ⟨2, ![N, b]⟩ ![0, 1] hbcA
            (Host.rsqrt (addf (arrayVar hr hu hcolA hz1 hbcA w d junk B)
              (broadcastInDim ⟨2, ![N, 1]⟩ ![] hz1 (constant (F := Ideal) ⟨0, ![]⟩ .f32 e))))))
        (broadcastInDim ⟨2, ![N, b]⟩ ![0, 1] hbd g))
      (broadcastInDim ⟨2, ![N, b]⟩ ![0, 1] hbd c))
    (broadcastInDim ⟨2, ![N, b]⟩ ![] hz (constant (F := Ideal) ⟨0, ![]⟩ .f32 0x00000000#32))

theorem arraySum_entry (B : FVec Ideal ⟨2, ![N, b]⟩ .f32) (r : Fin N) :
    arraySum hr hu hcolA B (ix2 r (0 : Fin 1)) = ∑ k : Fin b, B (ix2 r k) :=
  hostSum_col B hr hu hcolA r

theorem arrayDev_entry (w : BitVec 32) (B : FVec Ideal ⟨2, ![N, b]⟩ .f32) (r : Fin N) (q : Fin b) :
    arrayDev hr hu hcolA hz1 hbcA w B (ix2 r q) = rowDev (Ideal.ofBits .f32 w) (fun k => B (ix2 r k)) q := by
  show subf B _ (ix2 r q) = _
  rw [subf_apply, col_array_entry, hostDivf_apply, arraySum_entry hr hu hcolA B r, broadcastInDim_scalar_apply]
  rfl

theorem arrayVar_entry (w : BitVec 32) (d : FVec Ideal ⟨0, ![]⟩ .f32) (hd : d ix0 = Ideal.ofBits .f32 w)
    (hw : 0 < Ideal.ofBits .f32 w) (junk : FVec Ideal ⟨2, ![N, 1]⟩ .f32) (B : FVec Ideal ⟨2, ![N, b]⟩ .f32) (r : Fin N) :
    arrayVar hr hu hcolA hz1 hbcA w d junk B (ix2 r (0 : Fin 1)) = rowVar (Ideal.ofBits .f32 w) (fun k => B (ix2 r k)) := by
  show select _ _ _ (ix2 r (0 : Fin 1)) = _
  rw [select_apply, broadcastInDim_scalar_apply, cmpf_apply, hd, constant_apply, Ideal.ofBits_zero_f32]
  have hc : FloatOps.cmpf (F := Ideal) (φ := .f32) .ogt (Ideal.ofBits .f32 w) 0 = 1#1 := by
    show BitVec.ofBool (decide ((0 : EReal) < Ideal.ofBits .f32 w)) = 1#1
    rw [decide_eq_true hw]; rfl
  rw [hc]
  show Ideal.div (arraySum hr hu hcolA _ (ix2 r (0 : Fin 1))) (broadcastInDim ⟨2, ![N, 1]⟩ ![] hz1 d (ix2 r (0 : Fin 1))) = _
  rw [arraySum_entry hr hu hcolA _ r, broadcastInDim_scalar_apply, hd]
  refine congrArg (fun s => Ideal.div s (Ideal.ofBits .f32 w)) (Finset.sum_congr rfl fun k _ => ?_)
  rw [mulf_apply, arrayDev_entry hr hu hcolA hz1 hbcA w B r k]

theorem arrayNorm_entry (w e : BitVec 32) (d : FVec Ideal ⟨0, ![]⟩ .f32) (hd : d ix0 = Ideal.ofBits .f32 w)
    (hw : 0 < Ideal.ofBits .f32 w) (junk : FVec Ideal ⟨2, ![N, 1]⟩ .f32) (B : FVec Ideal ⟨2, ![N, b]⟩ .f32)
    (g c : FVec Ideal ⟨2, ![1, b]⟩ .f32) (r : Fin N) (q : Fin b) :
    arrayNorm hr hu hcolA hz1 hbcA hbd hz w e d junk B g c (ix2 r q)
      = rowNorm (Ideal.ofBits .f32 w) (Ideal.ofBits .f32 e) (fun k => B (ix2 r k)) (g (ix2 (0 : Fin 1) q)) (c (ix2 (0 : Fin 1) q)) q := by
  show maximumf _ _ (ix2 r q) = _
  rw [maximumf_apply, addf_apply, mulf_apply, mulf_apply, arrayDev_entry hr hu hcolA hz1 hbcA w B r q, col_array_entry,
    row_array_entry hbd g r q, row_array_entry hbd c r q, broadcastInDim_scalar_apply, constant_apply, Ideal.ofBits_zero_f32]
  show max (_ * Ideal.rsqrt (arrayVar hr hu hcolA hz1 hbcA w d junk B (ix2 r (0 : Fin 1))
    + broadcastInDim ⟨2, ![N, 1]⟩ ![] hz1 (constant (F := Ideal) ⟨0, ![]⟩ .f32 e) (ix2 r (0 : Fin 1))) * _ + _) 0 = _
  rw [arrayVar_entry hr hu hcolA hz1 hbcA w d hd hw junk B r, broadcastInDim_scalar_apply]
  rfl

end Array

/-! ## The two set side by side -/

/-- Entry (p, q) of the normalised block is entry (r, q) of the normalised array, when block row p is array row r, the
    scale and shift rows are the same, and the array's divisor is the block's and is positive. -/
theorem norm_entry
    (hred : (⟨2, ![n, b]⟩ : Shape).Reduces [1] ⟨1, ![n]⟩) (hφ : FKind.Formats .f32)
    (hacc : (0x00000000#32 : BitVec 32) = FKind.add.neutral .f32 hφ)
    (hcol : (⟨1, ![n]⟩ : Shape).ShapeCasts ⟨2, ![n, 1]⟩) (hbc : (⟨2, ![n, 1]⟩ : Shape).Broadcasts ⟨2, ![n, b]⟩)
    (hc1 : (⟨2, ![1, b]⟩ : Shape).ShapeCasts ⟨2, ![1, b]⟩) (hb1 : (⟨2, ![1, b]⟩ : Shape).Broadcasts ⟨2, ![n, b]⟩)
    (hr : (⟨2, ![N, b]⟩ : Shape).ReducesTo [1] ⟨1, ![N]⟩) (hu : 0 < (⟨0, ![]⟩ : Shape).numel)
    (hcolA : (⟨1, ![N]⟩ : Shape).BroadcastsInDim ⟨2, ![N, 1]⟩ ![0])
    (hz1 : (⟨0, ![]⟩ : Shape).BroadcastsInDim ⟨2, ![N, 1]⟩ ![])
    (hbcA : (⟨2, ![N, 1]⟩ : Shape).BroadcastsInDim ⟨2, ![N, b]⟩ ![0, 1])
    (hbd : (⟨2, ![1, b]⟩ : Shape).BroadcastsInDim ⟨2, ![N, b]⟩ ![0, 1])
    (hz : (⟨0, ![]⟩ : Shape).BroadcastsInDim ⟨2, ![N, b]⟩ ![])
    (w e : BitVec 32) (d : FVec Ideal ⟨0, ![]⟩ .f32) (hd : d ix0 = Ideal.ofBits .f32 w) (hw : 0 < Ideal.ofBits .f32 w)
    (junk : FVec Ideal ⟨2, ![N, 1]⟩ .f32)
    (A : FVec Ideal ⟨2, ![n, b]⟩ .f32) (B : FVec Ideal ⟨2, ![N, b]⟩ .f32) (g c : FVec Ideal ⟨2, ![1, b]⟩ .f32)
    (p : Fin n) (r : Fin N) (h0 : ∀ k : Fin b, A (ix2 p k) = B (ix2 r k)) (q : Fin b) :
    blockNorm hred hφ hacc hcol hbc hc1 hb1 w e A g c (ix2 p q)
      = arrayNorm hr hu hcolA hz1 hbcA hbd hz w e d junk B g c (ix2 r q) := by
  rw [blockNorm_entry, arrayNorm_entry hr hu hcolA hz1 hbcA hbd hz w e d hd hw junk B g c r q,
    show (fun k => A (ix2 p k)) = fun k => B (ix2 r k) from funext h0]

end Cert.LibLayerNorm

end
-- ==== Proof.NodeEntry.lean ====
/-
  The node kernel's block, read at one entry, beside the reference's node update.

  A block holds 5000 consecutive nodes. With sc the scale number, row p of what the body stores is computed from row p
  of the node features x and of the aggregated messages a alone:
      h   = sc * x + a,
      h1  = max( h W1 + b1 , 0 ),
      h2  = h1 W2 + b2,
      mu  = (sum_j h2_j) / 128,   d = h2 - mu,   var = (sum_j d_j^2) / 128,
      out = max( d * rsqrt(var + 1e-5) * gamma + beta , 0 ).
  Both products are taken on the matrix unit from a zero accumulator with the operands narrowed on the way in, which
  changes nothing over the extended reals; the row sums are lane sums, reshaped to a column and broadcast back along
  the rows. The reference's node update at row r is the same expression of the whole arrays, its row sums the host's
  sums from zero, its variance divided by 128 - 0 (the zero an integer, converted) and kept because that divisor is
  positive. So the two agree as soon as block row p is array row r: the two dense layers entry by entry for every
  column, then the normalisation of the row.
-/
import proofs.«104617_j74113955660246_1_alg».proof.Proof.Gen.KernelIdeal.Frame
import proofs.«104617_j74113955660246_1_alg».proof.Proof.Gen.ReferenceIdeal
import proofs.«104617_j74113955660246_1_alg».proof.Proof.RefStages
import proofs.«104617_j74113955660246_1_alg».proof.Proof.LibDenseLayer
import proofs.«104617_j74113955660246_1_alg».proof.Proof.LibLayerNorm

noncomputable section

namespace Cert.KernelIdeal.Blocks

open Idealize.ShloMosaic Idealize.ShloMosaic.ValueIdx
open Cert.KernelIdeal Cert.KernelIdeal.Gen

/-- The node kernel's contraction is a plain rows-by-columns product. -/
theorem dotN_plain : dot_S5000x128_S128x128_S5000x128_1_0_0_1_n_n = DotDims.plain 5000 128 128 := rfl

/-- So is the reference's dense layer. -/
theorem dotN_ref_plain :
    Cert.ReferenceIdeal.dot_S100000x128_S128x128_S100000x128_1_0_0_1_n_n = DotDims.plain 100000 128 128 := rfl

/-- The word 0x43000000 denotes 128. -/
theorem ofBits_128 : Ideal.ofBits .f32 0x43000000#32 = ((128 : ℝ) : EReal) := by
  simp [Ideal.ofBits, Ideal.ieee, -EReal.coe_mul]; norm_num

/-- 128 is positive. -/
theorem ofBits_128_pos : 0 < Ideal.ofBits .f32 0x43000000#32 := by
  rw [ofBits_128]; exact EReal.coe_pos.mpr (by norm_num)

/-- Entry (p, q) of the stored block is entry (r, q) of the reference's node update, when block row p of the node
    features and of the aggregated messages is array row r, and the scale row holds the scale number. -/
theorem node_entry (x0 x1 : Vec Ideal S5000x128 .f32) (x2 : Vec Ideal S1x128 .f32) (x3 : Vec Ideal S128x128 .f32)
    (x4 : Vec Ideal S1x128 .f32) (x5 : Vec Ideal S128x128 .f32) (x6 x7 x8 : Vec Ideal S1x128 .f32)
    (X AG : FVec Ideal Cert.ReferenceIdeal.S100000x128 .f32) (sc : FVec Ideal Cert.ReferenceIdeal.S_ .f32)
    (W1 : FVec Ideal Cert.ReferenceIdeal.S128x128 .f32) (r1 : FVec Ideal Cert.ReferenceIdeal.S1x128 .f32)
    (W2 : FVec Ideal Cert.ReferenceIdeal.S128x128 .f32) (r2 rg rb : FVec Ideal Cert.ReferenceIdeal.S1x128 .f32)
    (p : Fin 5000) (r : Fin 100000) (q : Fin 128)
    (h0 : ∀ k : Fin 128, x0 (ix2 p k) = X (ix2 r k)) (h1 : ∀ k : Fin 128, x1 (ix2 p k) = AG (ix2 r k))
    (h2 : ∀ k : Fin 128, x2 (ix2 (0 : Fin 1) k) = sc ix0) (h3 : x3 = W1) (h4 : x4 = r1) (h5 : x5 = W2) (h6 : x6 = r2)
    (h7 : x7 = rg) (h8 : x8 = rb) :
    out1_9 (F := Ideal) x0 x1 x2 x3 x4 x5 x6 x7 x8 (ix2 p q)
      = Cert.ReferenceIdeal.Stages.node (F := Ideal) X AG sc W1 r1 W2 r2 rg rb (ix2 r q) := by
  subst h3 h4 h5 h6 h7 h8
  unfold out1_9
  rw [View.canon_unit_zero Cert.LibBlocks.off2_zero]
  simp only [View.ld_unit_zero (S := S1x128) Cert.LibBlocks.off2_zero, View.ld_unit_zero (S := S5000x128) Cert.LibBlocks.off2_zero,
    View.ld_unit_zero (S := S128x128) Cert.LibBlocks.off2_zero]
  unfold k1_pay1 k1_pay3 k1_pay2 Cert.ReferenceIdeal.Stages.node Cert.ReferenceIdeal.Stages.posN
    Cert.ReferenceIdeal.Stages.layerNorm Cert.ReferenceIdeal.Stages.variance Cert.ReferenceIdeal.Stages.centred
    Cert.ReferenceIdeal.Stages.rowMean Cert.ReferenceIdeal.Stages.rowSum Cert.ReferenceIdeal.Stages.dof
    Cert.ReferenceIdeal.Stages.dense Cert.ReferenceIdeal.Stages.combine
  -- the normalisation of the row, once the second dense layer's row p is the array's row r …
  refine Cert.LibLayerNorm.norm_entry reduces_S5000x128_S5000 (.inl rfl) rfl shapeCasts_S5000_S5000x1
    broadcasts_S5000x1_S5000x128 shapeCasts_S1x128_S1x128 broadcasts_S1x128_S5000x128
    Cert.ReferenceIdeal.Facts₀.reducesTo_S100000x128_S100000_d1 Cert.ReferenceIdeal.Facts₀.h_S_
    Cert.ReferenceIdeal.Facts₀.bcast_S100000_S100000x1_0 Cert.ReferenceIdeal.Facts₀.bcast_S_S100000x1
    Cert.ReferenceIdeal.Facts₀.bcast_S100000x1_S100000x128_0_1 Cert.ReferenceIdeal.Facts₀.bcast_S1x128_S100000x128_0_1
    Cert.ReferenceIdeal.Facts₀.bcast_S_S100000x128
    0x43000000#32 0x3727C5AC#32 _ (Cert.LibLayerNorm.dof_apply 0x43000000#32 ix0) ofBits_128_pos _ _ _ x7 x8 p r (fun k => ?_) q
  -- … which it is when the hidden layer's row p is the array's row r …
  refine Cert.LibDenseLayer.out_entry _ dotN_plain _ dotN_ref_plain bitsLt_bf16_f32 shapeCasts_S1x128_S1x128
    broadcasts_S1x128_S5000x128 Cert.ReferenceIdeal.Facts₀.bcast_S1x128_S100000x128_0_1 _ _ x5 x6 p r (fun j => ?_) k
  -- … which it is when the combined input's row p is the array's row r …
  refine Cert.LibDenseLayer.hidden_entry _ dotN_plain _ dotN_ref_plain bitsLt_bf16_f32 shapeCasts_S1x128_S1x128
    broadcasts_S1x128_S5000x128 Cert.ReferenceIdeal.Facts₀.bcast_S1x128_S100000x128_0_1
    Cert.ReferenceIdeal.Facts₀.bcast_S_S100000x128 _ _ x3 x4 p r (fun i => ?_) j
  -- … and the combined input is sc * x + a on both sides.
  rw [addf_apply, addf_apply, mulf_apply, mulf_apply,
    Cert.LibLayerNorm.row_block_entry shapeCasts_S1x128_S1x128 broadcasts_S1x128_S5000x128 x2 p i, shapeCast_self,
    broadcastInDim_scalar_apply, h0 i, h1 i, h2 i]

end Cert.KernelIdeal.Blocks

end
-- ==== Proof.NodeArray.lean ====
/-
  The node kernel's blocks, put together: the whole result array.

  The grid has 20 points; point t stores rows 5000 t … 5000 t + 4999 of the result, computed from the same rows of
  the node features and of the aggregated messages and from the scale row, the two weight matrices and the four
  bias / scale / shift rows, which every point reads in full. Every row of the result depends on its own row of the
  two moving arrays only, so a stored block is the reference's node update read through the block's rectangle, and
  the 20 blocks tile the 100000 rows: row r lies in block r / 5000.
-/
import proofs.«104617_j74113955660246_1_alg».proof.Proof.NodeEntry
import proofs.«104617_j74113955660246_1_alg».proof.Proof.Gen.KernelIdeal.Points
import Idealize.ShloMosaic.Lib.Pipeline.Value

set_option maxRecDepth 16384

noncomputable section

namespace Cert.KernelIdeal.Blocks

open Idealize.ShloMosaic Idealize.ShloMosaic.TcCoe Idealize.ShloMosaic.ValueIdx Idealize.SL.Sem
open Cert.KernelIdeal Cert.KernelIdeal.Gen
open Idealize.ShloMosaic.Pipeline (Dat)

variable (V : (c : Dev nD) → (b : Ref sig .tc) → Buf (Elt Ideal) ((c : Thread nD τ).loc b))

/-! ## The blocks and arrays of region 1, at their literal types -/

abbrev xBlk (c : Dev nD) (t : Fin cfg1.N) : Vec Ideal S5000x128 .f32 := iblk1 V c 0 t
abbrev agBlk (c : Dev nD) (t : Fin cfg1.N) : Vec Ideal S5000x128 .f32 := iblk1 V c 1 t
abbrev scBlk (c : Dev nD) (t : Fin cfg1.N) : Vec Ideal S1x128 .f32 := iblk1 V c 2 t
abbrev w1Blk (c : Dev nD) (t : Fin cfg1.N) : Vec Ideal S128x128 .f32 := iblk1 V c 3 t
abbrev b1Blk (c : Dev nD) (t : Fin cfg1.N) : Vec Ideal S1x128 .f32 := iblk1 V c 4 t
abbrev w2Blk (c : Dev nD) (t : Fin cfg1.N) : Vec Ideal S128x128 .f32 := iblk1 V c 5 t
abbrev b2Blk (c : Dev nD) (t : Fin cfg1.N) : Vec Ideal S1x128 .f32 := iblk1 V c 6 t
abbrev gaBlk (c : Dev nD) (t : Fin cfg1.N) : Vec Ideal S1x128 .f32 := iblk1 V c 7 t
abbrev btBlk (c : Dev nD) (t : Fin cfg1.N) : Vec Ideal S1x128 .f32 := iblk1 V c 8 t
abbrev xArr (c : Dev nD) : FVec Ideal Cert.ReferenceIdeal.S100000x128 .f32 := V c main_arg0
abbrev agArr (c : Dev nD) : FVec Ideal Cert.ReferenceIdeal.S100000x128 .f32 := V c main_v15
abbrev scArr (c : Dev nD) : FVec Ideal Cert.ReferenceIdeal.S1x128 .f32 := V c main_v17
abbrev w1Arr (c : Dev nD) : FVec Ideal Cert.ReferenceIdeal.S128x128 .f32 := V c main_arg7
abbrev b1Arr (c : Dev nD) : FVec Ideal Cert.ReferenceIdeal.S1x128 .f32 := V c main_v18
abbrev w2Arr (c : Dev nD) : FVec Ideal Cert.ReferenceIdeal.S128x128 .f32 := V c main_arg9
abbrev b2Arr (c : Dev nD) : FVec Ideal Cert.ReferenceIdeal.S1x128 .f32 := V c main_v19
abbrev gaArr (c : Dev nD) : FVec Ideal Cert.ReferenceIdeal.S1x128 .f32 := V c main_v20
abbrev btArr (c : Dev nD) : FVec Ideal Cert.ReferenceIdeal.S1x128 .f32 := V c main_v21

/-- The index maps of region 1, decided over its 20 points: the row windows move with the point, the others stay. -/
theorem idx1 : ∀ t : Fin cfg1.N,
    win1_0.index t (0 : Fin 2) = t.val
    ∧ win1_0.index t (1 : Fin 2) = 0
    ∧ win1_1.index t (0 : Fin 2) = t.val
    ∧ win1_1.index t (1 : Fin 2) = 0
    ∧ win1_2.index t (0 : Fin 2) = 0
    ∧ win1_2.index t (1 : Fin 2) = 0
    ∧ win1_3.index t (0 : Fin 2) = 0
    ∧ win1_3.index t (1 : Fin 2) = 0
    ∧ win1_4.index t (0 : Fin 2) = 0
    ∧ win1_4.index t (1 : Fin 2) = 0
    ∧ win1_5.index t (0 : Fin 2) = 0
    ∧ win1_5.index t (1 : Fin 2) = 0
    ∧ win1_6.index t (0 : Fin 2) = 0
    ∧ win1_6.index t (1 : Fin 2) = 0
    ∧ win1_7.index t (0 : Fin 2) = 0
    ∧ win1_7.index t (1 : Fin 2) = 0
    ∧ win1_8.index t (0 : Fin 2) = 0
    ∧ win1_8.index t (1 : Fin 2) = 0
    ∧ win1_9.index t (0 : Fin 2) = t.val
    ∧ win1_9.index t (1 : Fin 2) = 0 :=
  (by decide +kernel : ∀ t : Fin grid1.N, _)

theorem t_lt1 (t : Fin cfg1.N) : t.val < 20 := lt_of_lt_of_eq t.isLt N_1

/-- Row 5000 t + p of an array of 100000 rows. -/
abbrev rowOf1 (t : Fin cfg1.N) (p : Fin 5000) : Fin 100000 := ⟨t.val * 5000 + p.val, by have := t_lt1 t; have := p.isLt; omega⟩

/-! ## The blocks read at an entry -/

theorem xBlk_apply (c : Dev nD) (t : Fin cfg1.N) (p : Fin 5000) (k : Fin 128) :
    xBlk V c t (ix2 p k) = xArr V c (ix2 (rowOf1 t p) k) := by
  obtain ⟨e0, e1, -⟩ := idx1 t
  show V c main_arg0 (((cfg1.win 0).blk t).view.emb (ix2 p k)) = V c main_arg0 (ix2 (rowOf1 t p) k)
  refine congrArg _ (funext fun a => Fin.ext ?_)
  match a with
  | ⟨0, _⟩ => show win1_0.index t (0 : Fin 2) * 5000 + 1 * p.val = t.val * 5000 + p.val; omega
  | ⟨1, _⟩ => show win1_0.index t (1 : Fin 2) * 128 + 1 * k.val = k.val; omega

theorem agBlk_apply (c : Dev nD) (t : Fin cfg1.N) (p : Fin 5000) (k : Fin 128) :
    agBlk V c t (ix2 p k) = agArr V c (ix2 (rowOf1 t p) k) := by
  obtain ⟨-, -, e0, e1, -⟩ := idx1 t
  show V c main_v15 (((cfg1.win 1).blk t).view.emb (ix2 p k)) = V c main_v15 (ix2 (rowOf1 t p) k)
  refine congrArg _ (funext fun a => Fin.ext ?_)
  match a with
  | ⟨0, _⟩ => show win1_1.index t (0 : Fin 2) * 5000 + 1 * p.val = t.val * 5000 + p.val; omega
  | ⟨1, _⟩ => show win1_1.index t (1 : Fin 2) * 128 + 1 * k.val = k.val; omega

theorem scBlk_eq (c : Dev nD) (t : Fin cfg1.N) : scBlk V c t = scArr V c := by
  obtain ⟨-, -, -, -, e0, e1, -⟩ := idx1 t
  funext y
  show V c main_v17 (((cfg1.win 2).blk t).view.emb y) = V c main_v17 y
  refine congrArg _ (funext fun a => Fin.ext ?_)
  match a with
  | ⟨0, _⟩ => show win1_2.index t (0 : Fin 2) * 1 + 1 * (y 0).val = (y 0).val; omega
  | ⟨1, _⟩ => show win1_2.index t (1 : Fin 2) * 128 + 1 * (y 1).val = (y 1).val; omega

theorem w1Blk_eq (c : Dev nD) (t : Fin cfg1.N) : w1Blk V c t = w1Arr V c := by
  obtain ⟨-, -, -, -, -, -, e0, e1, -⟩ := idx1 t
  funext y
  show V c main_arg7 (((cfg1.win 3).blk t).view.emb y) = V c main_arg7 y
  refine congrArg _ (funext fun a => Fin.ext ?_)
  match a with
  | ⟨0, _⟩ => show win1_3.index t (0 : Fin 2) * 128 + 1 * (y 0).val = (y 0).val; omega
  | ⟨1, _⟩ => show win1_3.index t (1 : Fin 2) * 128 + 1 * (y 1).val = (y 1).val; omega

theorem b1Blk_eq (c : Dev nD) (t : Fin cfg1.N) : b1Blk V c t = b1Arr V c := by
  obtain ⟨-, -, -, -, -, -, -, -, e0, e1, -⟩ := idx1 t
  funext y
  show V c main_v18 (((cfg1.win 4).blk t).view.emb y) = V c main_v18 y
  refine congrArg _ (funext fun a => Fin.ext ?_)
  match a with
  | ⟨0, _⟩ => show win1_4.index t (0 : Fin 2) * 1 + 1 * (y 0).val = (y 0).val; omega
  | ⟨1, _⟩ => show win1_4.index t (1 : Fin 2) * 128 + 1 * (y 1).val = (y 1).val; omega

theorem w2Blk_eq (c : Dev nD) (t : Fin cfg1.N) : w2Blk V c t = w2Arr V c := by
  obtain ⟨-, -, -, -, -, -, -, -, -, -, e0, e1, -⟩ := idx1 t
  funext y
  show V c main_arg9 (((cfg1.win 5).blk t).view.emb y) = V c main_arg9 y
  refine congrArg _ (funext fun a => Fin.ext ?_)
  match a with
  | ⟨0, _⟩ => show win1_5.index t (0 : Fin 2) * 128 + 1 * (y 0).val = (y 0).val; omega
  | ⟨1, _⟩ => show win1_5.index t (1 : Fin 2) * 128 + 1 * (y 1).val = (y 1).val; omega

theorem b2Blk_eq (c : Dev nD) (t : Fin cfg1.N) : b2Blk V c t = b2Arr V c := by
  obtain ⟨-, -, -, -, -, -, -, -, -, -, -, -, e0, e1, -⟩ := idx1 t
  funext y
  show V c main_v19 (((cfg1.win 6).blk t).view.emb y) = V c main_v19 y
  refine congrArg _ (funext fun a => Fin.ext ?_)
  match a with
  | ⟨0, _⟩ => show win1_6.index t (0 : Fin 2) * 1 + 1 * (y 0).val = (y 0).val; omega
  | ⟨1, _⟩ => show win1_6.index t (1 : Fin 2) * 128 + 1 * (y 1).val = (y 1).val; omega

theorem gaBlk_eq (c : Dev nD) (t : Fin cfg1.N) : gaBlk V c t = gaArr V c := by
  obtain ⟨-, -, -, -, -, -, -, -, -, -, -, -, -, -, e0, e1, -⟩ := idx1 t
  funext y
  show V c main_v20 (((cfg1.win 7).blk t).view.emb y) = V c main_v20 y
  refine congrArg _ (funext fun a => Fin.ext ?_)
  match a with
  | ⟨0, _⟩ => show win1_7.index t (0 : Fin 2) * 1 + 1 * (y 0).val = (y 0).val; omega
  | ⟨1, _⟩ => show win1_7.index t (1 : Fin 2) * 128 + 1 * (y 1).val = (y 1).val; omega

theorem btBlk_eq (c : Dev nD) (t : Fin cfg1.N) : btBlk V c t = btArr V c := by
  obtain ⟨-, -, -, -, -, -, -, -, -, -, -, -, -, -, -, -, e0, e1, -⟩ := idx1 t
  funext y
  show V c main_v21 (((cfg1.win 8).blk t).view.emb y) = V c main_v21 y
  refine congrArg _ (funext fun a => Fin.ext ?_)
  match a with
  | ⟨0, _⟩ => show win1_8.index t (0 : Fin 2) * 1 + 1 * (y 0).val = (y 0).val; omega
  | ⟨1, _⟩ => show win1_8.index t (1 : Fin 2) * 128 + 1 * (y 1).val = (y 1).val; omega

/-! ## What a point writes back, and the whole array -/

/-- The reference's node update of what region 1 finds, the scale row being the number sc broadcast. -/
abbrev nodeOf (c : Dev nD) (sc : FVec Ideal Cert.ReferenceIdeal.S_ .f32) : FVec Ideal Cert.ReferenceIdeal.S100000x128 .f32 :=
  Cert.ReferenceIdeal.Stages.node (F := Ideal) (xArr V c) (agArr V c) sc (w1Arr V c) (b1Arr V c) (w2Arr V c) (b2Arr V c)
    (gaArr V c) (btArr V c)

/-- Point t writes back block t of the node update. -/
theorem flushed1 (c : Dev nD) (sc : FVec Ideal Cert.ReferenceIdeal.S_ .f32)
    (hsc : scArr V c = broadcastInDim S1x128 ![] Facts₀.bcast_S_S1x128 sc) (t : Fin cfg1.N) :
    (dat1 V c).flushed 9 t = ((cfg1.win 9).blk t).view.read (Elt Ideal) (nodeOf V c sc) := by
  show (cfg1.win 9).cut (grid1.coords t) ((dat1 V c).after 9 t) = _
  rw [after1_9]
  funext j
  obtain ⟨p, q, rfl⟩ : ∃ (p : Fin 5000) (q : Fin 128), j = ix2 p q := ⟨j 0, j 1, eq_ix2 j⟩
  obtain ⟨-, -, -, -, -, -, -, -, -, -, -, -, -, -, -, -, -, -, e0, e1⟩ := idx1 t
  have hemb : ((cfg1.win 9).blk t).view.emb (ix2 p q) = ix2 (rowOf1 t p) q := by
    refine funext fun a => Fin.ext ?_
    match a with
    | ⟨0, _⟩ => show win1_9.index t (0 : Fin 2) * 5000 + 1 * p.val = t.val * 5000 + p.val; omega
    | ⟨1, _⟩ => show win1_9.index t (1 : Fin 2) * 128 + 1 * q.val = q.val; omega
  have hs : ∀ k : Fin 128, scBlk V c t (ix2 (0 : Fin 1) k) = sc ix0 := fun k => by
    rw [scBlk_eq V c t, hsc]
    exact broadcastInDim_apply ![] Facts₀.bcast_S_S1x128 sc (ix2 (0 : Fin 1) k) ix0 (fun a => a.elim0)
  show out1_9 (xBlk V c t) (agBlk V c t) (scBlk V c t) (w1Blk V c t) (b1Blk V c t) (w2Blk V c t) (b2Blk V c t)
      (gaBlk V c t) (btBlk V c t) (ix2 p q)
    = nodeOf V c sc (((cfg1.win 9).blk t).view.emb (ix2 p q))
  rw [hemb]
  exact node_entry (xBlk V c t) (agBlk V c t) (scBlk V c t) (w1Blk V c t) (b1Blk V c t) (w2Blk V c t) (b2Blk V c t)
    (gaBlk V c t) (btBlk V c t) (xArr V c) (agArr V c) sc (w1Arr V c) (b1Arr V c) (w2Arr V c) (b2Arr V c) (gaArr V c) (btArr V c)
    p (rowOf1 t p) q (fun k => xBlk_apply V c t p k) (fun k => agBlk_apply V c t p k) hs (w1Blk_eq V c t) (b1Blk_eq V c t)
    (w2Blk_eq V c t) (b2Blk_eq V c t) (gaBlk_eq V c t) (btBlk_eq V c t)

/-- An index of the result array is in point t's block iff each coordinate is in the block's range on its axis. -/
theorem mem_blk1 (t : Fin cfg1.N) (i : S100000x128.Idx) :
    i ∈ ((cfg1.win 9).blk t).view.set ↔ ∀ a : Fin 2, win1_9.index t a * S5000x128.size a ≤ (i a).val
      ∧ (i a).val < win1_9.index t a * S5000x128.size a + S5000x128.size a := by
  show i ∈ ((View.whole main_v22).slice (win1_9.rect t)).set ↔ _
  rw [View.set_slice_whole, Rect.mem_set_unit]
  exact Iff.rfl

/-- After region 1 its output array is the reference's node update of what the region found. -/
theorem node_array (c : Dev nD) (sc : FVec Ideal Cert.ReferenceIdeal.S_ .f32)
    (hsc : scArr V c = broadcastInDim S1x128 ![] Facts₀.bcast_S_S1x128 sc) :
    (dat1 V c).arrAt 9 cfg1.N = nodeOf V c sc :=
  (dat1 V c).arrAt_eq_of_cover 9 (nodeOf V c sc) (fun t _ => flushed1 V c sc hsc t) fun i => by
    have hi0 : (i 0).val < 100000 := (i 0).isLt
    have hi1 : (i 1).val < 128 := (i 1).isLt
    let t : Fin cfg1.N := ⟨(i 0).val / 5000, by rw [show cfg1.N = 20 from N_1]; omega⟩
    obtain ⟨-, -, -, -, -, -, -, -, -, -, -, -, -, -, -, -, -, -, e0, e1⟩ := idx1 t
    have ht : t.val = (i 0).val / 5000 := rfl
    refine ⟨t, flush1_9 t, ?_⟩
    rw [mem_blk1]
    intro a
    match a with
    | ⟨0, _⟩ => show win1_9.index t (0 : Fin 2) * 5000 ≤ (i 0).val ∧ (i 0).val < win1_9.index t (0 : Fin 2) * 5000 + 5000; omega
    | ⟨1, _⟩ => show win1_9.index t (1 : Fin 2) * 128 ≤ (i 1).val ∧ (i 1).val < win1_9.index t (1 : Fin 2) * 128 + 128; omega

end Cert.KernelIdeal.Blocks

end
-- ==== Proof.KernelHost.lean ====
/-
  What each region of the kernel program finds in its arrays, as functions of the launch memory.

  The buffers at a region's entry are a fold of the host operations over what the previous boundary held. A buffer
  no operation of a stretch writes is carried through it unchanged; a buffer some operation writes holds that
  operation's function of the buffers it reads. Walking the fold back to the launch memory gives every array a
  region reads as a term of the launch arrays: the arguments themselves, rows recast as 1 x 128 arrays, the rows of
  the source nodes gathered by the edge list's first row, and the sum of the first region's output into the nodes
  named by the edge list's second row.

  The two programs name the same shapes, and their gather and scatter records have the same fields, so the terms
  the fold produces are the reference's stages word for word.
-/
import proofs.«104617_j74113955660246_1_alg».proof.Proof.Gen.KernelIdeal.Frame
import proofs.«104617_j74113955660246_1_alg».proof.Proof.Gen.ReferenceIdeal
import proofs.«104617_j74113955660246_1_alg».proof.Proof.RefStages
import Idealize.ShloMosaic.Lib.StableHlo.Run

noncomputable section

namespace Cert.KernelIdeal.HostSide

open Idealize.ShloMosaic Idealize.ShloMosaic.TcCoe Idealize.SL.Sem Idealize.ShloMosaic.StableHlo
open Cert.KernelIdeal Cert.KernelIdeal.Gen

variable {F : FTy → Type} [FloatOps F]
variable (m : (ℓ : Loc nD τ sig) → Buf (Elt F) ℓ) (ρ : Dev nD → PrngReg)

/-! ## The two programs' index records -/

/-- The gather records of the two programs have the same fields. -/
theorem gather_eq :
    Cert.KernelIdeal.gather_S100000x128_S600000x1_S600000x128_1_0_n_n_0_1_1128
      = Cert.ReferenceIdeal.gather_S100000x128_S600000x1_S600000x128_1_0_n_n_0_1_1128 := rfl

/-- So have their scatter records. -/
theorem scatter_eq :
    Cert.KernelIdeal.scatter_S100000x128_S600000x1_S600000x128_1_0_0_1
      = Cert.ReferenceIdeal.scatter_S100000x128_S600000x1_S600000x128_1_0_0_1 := rfl

/-! ## Buffers a stretch of host operations leaves alone -/

/-- No operation of a literal list writes the reference at hand: one inequality of references per operation. -/
local macro "no_write" ops:ident : tactic =>
  `(tactic| exact List.forall_iff_forall_mem.mp (by
      simp only [$ops:ident, List.Forall, StableHlo.nullary_writes, StableHlo.unary_writes, StableHlo.binary_writes,
        StableHlo.ternary_writes, StableHlo.reshape_writes, Finset.mem_singleton]
      repeat' apply And.intro
      all_goals exact StableHlo.devRef_ne_of_ne (by decide)))

/-- A buffer the first stretch does not write holds the launch memory's contents at the first region's entry. -/
theorem W1_launch (c : Dev nD) (r : Ref sig .tc)
    (h0 : ∀ op ∈ (hostOps0 : List (HloOp τ sig (Elt F))), Proc.devRef .tc r ∉ op.writes) :
    W1 m ρ c (Proc.devRef .tc r) = m ((c.tc : Thread nD τ).loc r) :=
  (StableHlo.after_of_forall_not_mem (b := Proc.devRef .tc r) _ _ h0).trans rfl

/-- If it is no array of the first region either, the region's exit finds it unchanged. -/
theorem W2_launch (c : Dev nD) (r : Ref sig .tc) (h2 : ∀ w, Pipeline.arrRef spec0 w ≠ r)
    (h0 : ∀ op ∈ (hostOps0 : List (HloOp τ sig (Elt F))), Proc.devRef .tc r ∉ op.writes) :
    W2 m ρ c (Proc.devRef .tc r) = m ((c.tc : Thread nD τ).loc r) :=
  (W2_of_ne m ρ c r h2).trans (W1_launch m ρ c r h0)

/-- And if the second stretch does not write it, so does the second region's entry. -/
theorem W3_launch (c : Dev nD) (r : Ref sig .tc)
    (h1 : ∀ op ∈ (hostOps1 : List (HloOp τ sig (Elt F))), Proc.devRef .tc r ∉ op.writes)
    (h2 : ∀ w, Pipeline.arrRef spec0 w ≠ r)
    (h0 : ∀ op ∈ (hostOps0 : List (HloOp τ sig (Elt F))), Proc.devRef .tc r ∉ op.writes) :
    W3 m ρ c (Proc.devRef .tc r) = m ((c.tc : Thread nD τ).loc r) :=
  (StableHlo.after_of_forall_not_mem (b := Proc.devRef .tc r) _ _ h1).trans (W2_launch m ρ c r h2 h0)

/-! ## The first region's arrays -/

attribute [local irreducible] Host.gather Host.scatterAdd

theorem V1_v10 (c : Dev nD) : V1 m ρ c main_v10 = Cert.ReferenceIdeal.Stages.gathered (F := F) (m ((c.tc : Thread nD τ).loc main_arg0)) (m ((c.tc : Thread nD τ).loc main_arg1)) := by
  show StableHlo.after hostOps0 (W0 m ρ c) (Proc.devRef .tc main_v10) = _
  after_results
  rw [gather_eq]
  rfl
theorem V1_arg2 (c : Dev nD) : V1 m ρ c main_arg2 = (m ((c.tc : Thread nD τ).loc main_arg2)) :=
  W1_launch m ρ c main_arg2 (by no_write hostOps0)
theorem V1_arg4 (c : Dev nD) : V1 m ρ c main_arg4 = (m ((c.tc : Thread nD τ).loc main_arg4)) :=
  W1_launch m ρ c main_arg4 (by no_write hostOps0)
theorem V1_v11 (c : Dev nD) : V1 m ρ c main_v11 = shapeCast S1x128 (m ((c.tc : Thread nD τ).loc main_arg5)) Facts₀.shapeCasts_S128_S1x128 := by
  show StableHlo.after hostOps0 (W0 m ρ c) (Proc.devRef .tc main_v11) = _
  after_results
  rfl

/-! ## The second region's arrays -/

/-- Row 1 of the edge list, as the first stretch leaves it. -/
theorem W1_v3 (c : Dev nD) :
    W1 m ρ c (Proc.devRef .tc main_v3) = Cert.ReferenceIdeal.Stages.dstRow (m ((c.tc : Thread nD τ).loc main_arg1)) := by
  show StableHlo.after hostOps0 (W0 m ρ c) (Proc.devRef .tc main_v3) = _
  after_results
  rfl

theorem V3_arg0 (c : Dev nD) : V3 m ρ c main_arg0 = (m ((c.tc : Thread nD τ).loc main_arg0)) :=
  W3_launch m ρ c main_arg0 (by no_write hostOps1) (by decide) (by no_write hostOps0)
theorem V3_v15 (c : Dev nD) : V3 m ρ c main_v15
    = Cert.ReferenceIdeal.Stages.aggregate (F := F) (m ((c.tc : Thread nD τ).loc main_arg1)) (W2 m ρ c (Proc.devRef .tc main_v12)) := by
  show StableHlo.after hostOps1 (W2 m ρ c) (Proc.devRef .tc main_v15) = _
  after_results
  rw [W2_of_ne m ρ c main_v3 (by decide), W1_v3, scatter_eq]
  rfl
theorem V3_v17 (c : Dev nD) : V3 m ρ c main_v17
    = broadcastInDim S1x128 ![] Facts₀.bcast_S_S1x128 (Cert.ReferenceIdeal.Stages.onePlus (F := F) (m ((c.tc : Thread nD τ).loc main_arg6))) := by
  show StableHlo.after hostOps1 (W2 m ρ c) (Proc.devRef .tc main_v17) = _
  after_results
  rw [W2_launch m ρ c main_arg6 (by decide) (by no_write hostOps0)]
  rfl
theorem V3_arg7 (c : Dev nD) : V3 m ρ c main_arg7 = (m ((c.tc : Thread nD τ).loc main_arg7)) :=
  W3_launch m ρ c main_arg7 (by no_write hostOps1) (by decide) (by no_write hostOps0)
theorem V3_v18 (c : Dev nD) : V3 m ρ c main_v18 = shapeCast S1x128 (m ((c.tc : Thread nD τ).loc main_arg8)) Facts₀.shapeCasts_S128_S1x128 := by
  show StableHlo.after hostOps1 (W2 m ρ c) (Proc.devRef .tc main_v18) = _
  after_results
  rw [W2_launch m ρ c main_arg8 (by decide) (by no_write hostOps0)]
  rfl
theorem V3_arg9 (c : Dev nD) : V3 m ρ c main_arg9 = (m ((c.tc : Thread nD τ).loc main_arg9)) :=
  W3_launch m ρ c main_arg9 (by no_write hostOps1) (by decide) (by no_write hostOps0)
theorem V3_v19 (c : Dev nD) : V3 m ρ c main_v19 = shapeCast S1x128 (m ((c.tc : Thread nD τ).loc main_arg10)) Facts₀.shapeCasts_S128_S1x128 := by
  show StableHlo.after hostOps1 (W2 m ρ c) (Proc.devRef .tc main_v19) = _
  after_results
  rw [W2_launch m ρ c main_arg10 (by decide) (by no_write hostOps0)]
  rfl
theorem V3_v20 (c : Dev nD) : V3 m ρ c main_v20 = shapeCast S1x128 (m ((c.tc : Thread nD τ).loc main_arg11)) Facts₀.shapeCasts_S128_S1x128 := by
  show StableHlo.after hostOps1 (W2 m ρ c) (Proc.devRef .tc main_v20) = _
  after_results
  rw [W2_launch m ρ c main_arg11 (by decide) (by no_write hostOps0)]
  rfl
theorem V3_v21 (c : Dev nD) : V3 m ρ c main_v21 = shapeCast S1x128 (m ((c.tc : Thread nD τ).loc main_arg12)) Facts₀.shapeCasts_S128_S1x128 := by
  show StableHlo.after hostOps1 (W2 m ρ c) (Proc.devRef .tc main_v21) = _
  after_results
  rw [W2_launch m ρ c main_arg12 (by decide) (by no_write hostOps0)]
  rfl

end Cert.KernelIdeal.HostSide

end
-- ==== Proof.LibLayout.lean ====
/-
  Two ways to write a vector as a matrix with one unit axis. A vector of n entries as a 1 x n row is the same array
  whether it is reshaped or broadcast along axis 1: entry (0, j) is entry j. As an n x 1 column it is the same whether
  reshaped or broadcast along axis 0: entry (i, 0) is entry i. In each case the row-major position of the matrix
  entry is the vector's index, because the other axis has length 1.
-/
import Idealize.ShloMosaic.Lib.Pipeline.Value
import Idealize.ShloMosaic.Lib.ValueIdx

namespace Cert.Proof.Layout

open Idealize.ShloMosaic Idealize.ShloMosaic.ValueIdx

variable {α : Type}

/-- A vector of n entries as a 1 x n row: the reshape is the broadcast along axis 1. -/
theorem reshape_row_eq_broadcastInDim {n : Nat} (x : (⟨1, ![n]⟩ : Shape).Idx → α)
    (h : (⟨1, ![n]⟩ : Shape).ShapeCasts ⟨2, ![1, n]⟩)
    (hd : (⟨1, ![n]⟩ : Shape).BroadcastsInDim ⟨2, ![1, n]⟩ ![1]) :
    shapeCast ⟨2, ![1, n]⟩ x h = broadcastInDim ⟨2, ![1, n]⟩ ![1] hd x := by
  funext i
  have h0 : (i 0).val < 1 := (i 0).isLt
  have h1 : (i 1).val < n := (i 1).isLt
  have e2 := shapeCast_apply x h i (ix1 (i 1 : Fin n)) (by
    rw [Shape.rowMajor_val_two, Shape.rowMajor_val_one]
    show (i 1).val = (i 0).val * n + (i 1).val
    have : (i 0).val = 0 := by omega
    rw [this]; omega)
  have e3 := broadcastInDim_apply ![1] hd x i (ix1 (i 1 : Fin n)) (by
    intro a
    match a with
    | ⟨0, _⟩ =>
      show (i 1).val = if n = 1 then 0 else (i 1).val
      split
      · omega
      · rfl)
  exact e2.trans e3.symm

/-- A vector of n entries as an n x 1 column: the reshape is the broadcast along axis 0. -/
theorem reshape_col_eq_broadcastInDim {n : Nat} (x : (⟨1, ![n]⟩ : Shape).Idx → α)
    (h : (⟨1, ![n]⟩ : Shape).ShapeCasts ⟨2, ![n, 1]⟩)
    (hd : (⟨1, ![n]⟩ : Shape).BroadcastsInDim ⟨2, ![n, 1]⟩ ![0]) :
    shapeCast ⟨2, ![n, 1]⟩ x h = broadcastInDim ⟨2, ![n, 1]⟩ ![0] hd x := by
  funext i
  have h0 : (i 0).val < n := (i 0).isLt
  have h1 : (i 1).val < 1 := (i 1).isLt
  have e2 := shapeCast_apply x h i (ix1 (i 0 : Fin n)) (by
    rw [Shape.rowMajor_val_two, Shape.rowMajor_val_one]
    show (i 0).val = (i 0).val * 1 + (i 1).val
    omega)
  have e3 := broadcastInDim_apply ![0] hd x i (ix1 (i 0 : Fin n)) (by
    intro a
    match a with
    | ⟨0, _⟩ =>
      show (i 0).val = if n = 1 then 0 else (i 0).val
      split
      · omega
      · rfl)
  exact e2.trans e3.symm

end Cert.Proof.Layout
-- ==== Proof.KernelValue.lean ====
/-
  The kernel program's result, as one function of the argument arrays.

  The result array is what the second region leaves: the reference's node update of the arrays that region finds.
  Those are the node features, the two weight matrices, the bias / scale / shift vectors written as rows, the scale
  1 + eps as a row, and the aggregated messages: the scatter-add, by the edges' targets, of what the first region
  leaves. That in turn is the reference's message array of what the first region finds: the gathered source rows, the
  edge attributes, the edge weights and the edge bias as a row. A vector reshaped to a 1 x 128 row is the same row the
  reference makes by broadcasting along axis 1. Put together, this is the reference's layer function.
-/
import proofs.«104617_j74113955660246_1_alg».proof.Proof.EdgeArray
import proofs.«104617_j74113955660246_1_alg».proof.Proof.NodeArray
import proofs.«104617_j74113955660246_1_alg».proof.Proof.KernelHost
import proofs.«104617_j74113955660246_1_alg».proof.Proof.LibLayout

set_option maxRecDepth 16384

noncomputable section

namespace Cert.KernelIdeal.Result

open Idealize.ShloMosaic Idealize.ShloMosaic.TcCoe Idealize.SL.Sem
open Cert.KernelIdeal Cert.KernelIdeal.Gen Cert.KernelIdeal.Blocks Cert.KernelIdeal.HostSide
open Cert.ReferenceIdeal.Stages

variable (m : (ℓ : Loc nD τ sig) → Buf (Elt Ideal) ℓ) (ρ : Dev nD → PrngReg)

/-- A vector of 128 entries reshaped to a 1 x 128 row is the row the reference makes by broadcasting along axis 1. -/
theorem row_eq (b : FVec Ideal S128 .f32) :
    shapeCast S1x128 b Facts₀.shapeCasts_S128_S1x128 = asRow (F := Ideal) b :=
  Cert.Proof.Layout.reshape_row_eq_broadcastInDim (n := 128) b Facts₀.shapeCasts_S128_S1x128
    Cert.ReferenceIdeal.Facts₀.bcast_S128_S1x128_1

/-- What the first region leaves in its output array: the reference's messages of the argument arrays. -/
theorem messages (c : Dev nD) :
    W2 m ρ c (Proc.devRef .tc main_v12)
      = msg (F := Ideal) (gathered (F := Ideal) (m ((c.tc : Thread nD τ).loc main_arg0)) (m ((c.tc : Thread nD τ).loc main_arg1))) (m ((c.tc : Thread nD τ).loc main_arg2)) (m ((c.tc : Thread nD τ).loc main_arg4))
          (asRow (F := Ideal) (m ((c.tc : Thread nD τ).loc main_arg5))) := by
  have h : W2 m ρ c (Proc.devRef .tc main_v12) = (dat0 (V1 m ρ) c).arrAt 4 cfg0.N := W2_arr m ρ c 4
  rw [h, edge_array (V1 m ρ) c]
  show msg (F := Ideal) (V1 m ρ c main_v10) (V1 m ρ c main_arg2) (V1 m ρ c main_arg4) (V1 m ρ c main_v11) = _
  rw [V1_v10 m ρ c, V1_arg2 m ρ c, V1_arg4 m ρ c, V1_v11 m ρ c, row_eq]

/-- The result array after the run is the reference's layer function of the argument arrays. -/
theorem result (c : Dev nD) :
    W4 m ρ c (Proc.devRef .tc main_v22) = layer (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) := by
  have h : W4 m ρ c (Proc.devRef .tc main_v22) = (dat1 (V3 m ρ) c).arrAt 9 cfg1.N := W4_arr m ρ c 9
  rw [h, node_array (V3 m ρ) c (onePlus (F := Ideal) (m ((c.tc : Thread nD τ).loc main_arg6))) (V3_v17 m ρ c)]
  show node (F := Ideal) (V3 m ρ c main_arg0) (V3 m ρ c main_v15) (onePlus (F := Ideal) (m ((c.tc : Thread nD τ).loc main_arg6)))
      (V3 m ρ c main_arg7) (V3 m ρ c main_v18) (V3 m ρ c main_arg9) (V3 m ρ c main_v19) (V3 m ρ c main_v20) (V3 m ρ c main_v21) = _
  rw [V3_arg0 m ρ c, V3_v15 m ρ c, V3_arg7 m ρ c, V3_v18 m ρ c, V3_arg9 m ρ c, V3_v19 m ρ c, V3_v20 m ρ c, V3_v21 m ρ c,
    messages m ρ c, row_eq, row_eq, row_eq, row_eq]
  rfl

end Cert.KernelIdeal.Result

end
-- ==== Proof.LibTypedOps.lean ====
/-
  A host operation written over TYPED references (a buffer together with the equation "its type is T") is the same
  operation written over the buffers themselves: the typed form only transports the operation's values along those
  equations, and when an equation is `rfl` the transport is the identity. Stated for the four arities a straight-line
  callee uses; with them a list of typed operations is rewritten, operation by operation, to the plain list, whose
  results can then be read without any transport in the way.
-/
import Idealize.ShloMosaic.Lib.StableHlo

noncomputable section

namespace Idealize.ShloMosaic.StableHlo.TRef

open Idealize.ShloMosaic Idealize.ShloMosaic.StableHlo

variable {τ : Topo} {sig : RefSig} {Val : EltTy → Type}

/-- A typed reference whose type equation is `rfl`. -/
abbrev plain (r : Ref sig .tc) (hd : r.space ≠ .host) (hu : r.isScoped = false) : TRef sig r.ty := ⟨r, rfl, hd, hu⟩

theorem nullary_plain (y : Ref sig .tc) (hd hu) (v : y.ty.Contents Val) :
    TRef.nullary (τ := τ) (plain y hd hu) v = StableHlo.nullary y v (plain y hd hu).dev := rfl

theorem unary_plain (x y : Ref sig .tc) (hdx hux hdy huy) (f : x.ty.Contents Val → y.ty.Contents Val) :
    TRef.unary (τ := τ) (plain x hdx hux) (plain y hdy huy) f
      = StableHlo.unary x y f (plain x hdx hux).dev (plain y hdy huy).dev := rfl

theorem binary_plain (a b y : Ref sig .tc) (hda hua hdb hub hdy huy)
    (f : a.ty.Contents Val → b.ty.Contents Val → y.ty.Contents Val) :
    TRef.binary (τ := τ) (plain a hda hua) (plain b hdb hub) (plain y hdy huy) f
      = StableHlo.binary a b y f (plain a hda hua).dev (plain b hdb hub).dev (plain y hdy huy).dev := rfl

theorem ternary_plain (c a b y : Ref sig .tc) (hdc huc hda hua hdb hub hdy huy)
    (f : c.ty.Contents Val → a.ty.Contents Val → b.ty.Contents Val → y.ty.Contents Val) :
    TRef.ternary (τ := τ) (plain c hdc huc) (plain a hda hua) (plain b hdb hub) (plain y hdy huy) f
      = StableHlo.ternary c a b y f (plain c hdc huc).dev (plain a hda hua).dev (plain b hdb hub).dev (plain y hdy huy).dev := rfl

end Idealize.ShloMosaic.StableHlo.TRef

end
-- ==== Proof.RefRun.lean ====
/-
  The reference program's run, read back: every weakly fair execution terminates with the result array at the layer
  function of the argument arrays, the arguments unchanged.

  The program is a straight line once its four local functions are unfolded at their calls: eighty-eight array
  operations, each writing one buffer of its own. The run of such a line is the fold of the operations' results over the
  launch contents; at the result buffer that fold is the layer function, operation for operation, and at an argument
  buffer it is the launch contents, since no operation writes an argument.
-/
import proofs.«104617_j74113955660246_1_alg».proof.Proof.Gen.ReferenceIdeal
import proofs.«104617_j74113955660246_1_alg».proof.Proof.RefStages
import proofs.«104617_j74113955660246_1_alg».proof.Proof.LibTypedOps
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- The program's eighty-eight operations in order, the calls unfolded: the rectifier's three (the zero, its broadcast, the
    maximum) at each of its three calls; the variance's twenty, then the three of the selection it calls (the fill value
    converted to its own type, broadcast, the select). -/
abbrev ops : List (HloOp τ sig (Elt F)) :=
  [ StableHlo.unary main_arg1 main_v0 ((extractStridedSlice S1x600000 ![0, 0] · slices_S2x600000_S1x600000_0_0) : (⟨S2x600000, .i32⟩ : BufTy).Contents (Elt F) → (⟨S1x600000, .i32⟩ : BufTy).Contents (Elt F)),
    StableHlo.reshape main_v0 main_v1 rfl shapeCasts_S1x600000_S600000,
    StableHlo.unary main_arg1 main_v2 ((extractStridedSlice S1x600000 ![1, 0] · slices_S2x600000_S1x600000_1_0) : (⟨S2x600000, .i32⟩ : BufTy).Contents (Elt F) → (⟨S1x600000, .i32⟩ : BufTy).Contents (Elt F)),
    StableHlo.reshape main_v2 main_v3 rfl shapeCasts_S1x600000_S600000,
    StableHlo.binary main_arg2 main_arg4 main_v4 ((fun l r => Host.dotGeneral dot_S600000x6_S6x128_S600000x128_1_0_0_1_n_n none l r) : (⟨S600000x6, .f32⟩ : BufTy).Contents (Elt F) → (⟨S6x128, .f32⟩ : BufTy).Contents (Elt F) → (⟨S600000x128, .f32⟩ : BufTy).Contents (Elt F)),
    StableHlo.unary main_arg5 main_v5 (broadcastInDim S1x128 ![1] bcast_S128_S1x128_1 : (⟨S128, .f32⟩ : BufTy).Contents (Elt F) → (⟨S1x128, .f32⟩ : BufTy).Contents (Elt F)),
    StableHlo.unary main_v5 main_v6 (broadcastInDim S600000x128 ![0, 1] bcast_S1x128_S600000x128_0_1 : (⟨S1x128, .f32⟩ : BufTy).Contents (Elt F) → (⟨S600000x128, .f32⟩ : BufTy).Contents (Elt F)),
    StableHlo.binary main_v4 main_v6 main_v7 (addf : (⟨S600000x128, .f32⟩ : BufTy).Contents (Elt F) → (⟨S600000x128, .f32⟩ : BufTy).Contents (Elt F) → (⟨S600000x128, .f32⟩ : BufTy).Contents (Elt F)),
    StableHlo.nullary main_c (constantI S_ 32 0#32),
    StableHlo.unary main_c main_v8 (broadcastInDim S600000 ![] bcast_S_S600000 : (⟨S_, .i32⟩ : BufTy).Contents (Elt F) → (⟨S600000, .i32⟩ : BufTy).Contents (Elt F)),
    StableHlo.binary main_v1 main_v8 main_v9 (cmpi .slt : (⟨S600000, .i32⟩ : BufTy).Contents (Elt F) → (⟨S600000, .i32⟩ : BufTy).Contents (Elt F) → (⟨S600000, .i1⟩ : BufTy).Contents (Elt F)),
    StableHlo.nullary main_c_0 (constantI S_ 32 100000#32),
    StableHlo.unary main_c_0 main_v10 (broadcastInDim S600000 ![] bcast_S_S600000 : (⟨S_, .i32⟩ : BufTy).Contents (Elt F) → (⟨S600000, .i32⟩ : BufTy).Contents (Elt F)),
    StableHlo.binary main_v1 main_v10 main_v11 (addi : (⟨S600000, .i32⟩ : BufTy).Contents (Elt F) → (⟨S600000, .i32⟩ : BufTy).Contents (Elt F) → (⟨S600000, .i32⟩ : BufTy).Contents (Elt F)),
    StableHlo.ternary main_v9 main_v11 main_v1 main_v12 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v12 main_v13 (broadcastInDim S600000x1 ![0] bcast_S600000_S600000x1_0 : (⟨S600000, .i32⟩ : BufTy).Contents (Elt F) → (⟨S600000x1, .i32⟩ : BufTy).Contents (Elt F)),
    StableHlo.binary main_arg0 main_v13 main_v14 ((fun x i => Host.gather gather_S100000x128_S600000x1_S600000x128_1_0_n_n_0_1_1128 x i) : (⟨S100000x128, .f32⟩ : BufTy).Contents (Elt F) → (⟨S600000x1, .i32⟩ : BufTy).Contents (Elt F) → (⟨S600000x128, .f32⟩ : BufTy).Contents (Elt F)),
    StableHlo.binary main_v14 main_v7 main_v15 (addf : (⟨S600000x128, .f32⟩ : BufTy).Contents (Elt F) → (⟨S600000x128, .f32⟩ : BufTy).Contents (Elt F) → (⟨S600000x128, .f32⟩ : BufTy).Contents (Elt F)),
    StableHlo.TRef.nullary main_call0.cst (constant S_ .f32 0x00000000#32),
    StableHlo.TRef.unary main_call0.cst main_call0.v0 (broadcastInDim S600000x128 ![] bcast_S_S600000x128),
    StableHlo.TRef.binary (.of main_v15 : StableHlo.TRef sig ⟨S600000x128, .f32⟩) main_call0.v0 main_call0.v1 maximumf,
    StableHlo.nullary main_cst (constant S_ .f32 0x00000000#32),
    StableHlo.unary main_cst main_v17 (broadcastInDim S100000x128 ![] bcast_S_S100000x128 : (⟨S_, .f32⟩ : BufTy).Contents (Elt F) → (⟨S100000x128, .f32⟩ : BufTy).Contents (Elt F)),
    StableHlo.unary main_v3 main_v18 (broadcastInDim S600000x1 ![0] bcast_S600000_S600000x1_0 : (⟨S600000, .i32⟩ : BufTy).Contents (Elt F) → (⟨S600000x1, .i32⟩ : BufTy).Contents (Elt F)),
    StableHlo.ternary main_v17 main_v18 main_v16 main_v19 ((fun x i u => Host.scatterAdd scatter_S100000x128_S600000x1_S600000x128_1_0_0_1 x i u) : (⟨S100000x128, .f32⟩ : BufTy).Contents (Elt F) → (⟨S600000x1, .i32⟩ : BufTy).Contents (Elt F) → (⟨S600000x128, .f32⟩ : BufTy).Contents (Elt F) → (⟨S100000x128, .f32⟩ : BufTy).Contents (Elt F)),
    StableHlo.nullary main_cst_1 (constant S_ .f32 0x3F800000#32),
    StableHlo.binary main_cst_1 main_arg6 main_v20 (addf : (⟨S_, .f32⟩ : BufTy).Contents (Elt F) → (⟨S_, .f32⟩ : BufTy).Contents (Elt F) → (⟨S_, .f32⟩ : BufTy).Contents (Elt F)),
    StableHlo.unary main_v20 main_v21 (broadcastInDim S100000x128 ![] bcast_S_S100000x128 : (⟨S_, .f32⟩ : BufTy).Contents (Elt F) → (⟨S100000x128, .f32⟩ : BufTy).Contents (Elt F)),
    StableHlo.binary main_v21 main_arg0 main_v22 (mulf : (⟨S100000x128, .f32⟩ : BufTy).Contents (Elt F) → (⟨S100000x128, .f32⟩ : BufTy).Contents (Elt F) → (⟨S100000x128, .f32⟩ : BufTy).Contents (Elt F)),
    StableHlo.binary main_v22 main_v19 main_v23 (addf : (⟨S100000x128, .f32⟩ : BufTy).Contents (Elt F) → (⟨S100000x128, .f32⟩ : BufTy).Contents (Elt F) → (⟨S100000x128, .f32⟩ : BufTy).Contents (Elt F)),
    StableHlo.binary main_v23 main_arg7 main_v24 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg8 main_v25 (broadcastInDim S1x128 ![1] bcast_S128_S1x128_1 : (⟨S128, .f32⟩ : BufTy).Contents (Elt F) → (⟨S1x128, .f32⟩ : BufTy).Contents (Elt F)),
    StableHlo.unary main_v25 main_v26 (broadcastInDim S100000x128 ![0, 1] bcast_S1x128_S100000x128_0_1 : (⟨S1x128, .f32⟩ : BufTy).Contents (Elt F) → (⟨S100000x128, .f32⟩ : BufTy).Contents (Elt F)),
    StableHlo.binary main_v24 main_v26 main_v27 (addf : (⟨S100000x128, .f32⟩ : BufTy).Contents (Elt F) → (⟨S100000x128, .f32⟩ : BufTy).Contents (Elt F) → (⟨S100000x128, .f32⟩ : BufTy).Contents (Elt F)),
    StableHlo.TRef.nullary main_call1.cst (constant S_ .f32 0x00000000#32),
    StableHlo.TRef.unary main_call1.cst main_call1.v0 (broadcastInDim S100000x128 ![] bcast_S_S100000x128),
    StableHlo.TRef.binary (.of main_v27 : StableHlo.TRef sig ⟨S100000x128, .f32⟩) main_call1.v0 main_call1.v1 maximumf,
    StableHlo.binary main_v28 main_arg9 main_v29 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg10 main_v30 (broadcastInDim S1x128 ![1] bcast_S128_S1x128_1 : (⟨S128, .f32⟩ : BufTy).Contents (Elt F) → (⟨S1x128, .f32⟩ : BufTy).Contents (Elt F)),
    StableHlo.unary main_v30 main_v31 (broadcastInDim S100000x128 ![0, 1] bcast_S1x128_S100000x128_0_1 : (⟨S1x128, .f32⟩ : BufTy).Contents (Elt F) → (⟨S100000x128, .f32⟩ : BufTy).Contents (Elt F)),
    StableHlo.binary main_v29 main_v31 main_v32 (addf : (⟨S100000x128, .f32⟩ : BufTy).Contents (Elt F) → (⟨S100000x128, .f32⟩ : BufTy).Contents (Elt F) → (⟨S100000x128, .f32⟩ : BufTy).Contents (Elt F)),
    StableHlo.nullary main_cst_2 (constant S_ .f32 0x00000000#32),
    StableHlo.binary main_v32 main_cst_2 main_v33 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    StableHlo.unary main_v33 main_v34 (broadcastInDim S100000x1 ![0] bcast_S100000_S100000x1_0 : (⟨S100000, .f32⟩ : BufTy).Contents (Elt F) → (⟨S100000x1, .f32⟩ : BufTy).Contents (Elt F)),
    StableHlo.nullary main_cst_3 (constant S_ .f32 0x43000000#32),
    StableHlo.unary main_cst_3 main_v35 (broadcastInDim S100000x1 ![] bcast_S_S100000x1 : (⟨S_, .f32⟩ : BufTy).Contents (Elt F) → (⟨S100000x1, .f32⟩ : BufTy).Contents (Elt F)),
    StableHlo.binary main_v34 main_v35 main_v36 (Host.divf : (⟨S100000x1, .f32⟩ : BufTy).Contents (Elt F) → (⟨S100000x1, .f32⟩ : BufTy).Contents (Elt F) → (⟨S100000x1, .f32⟩ : BufTy).Contents (Elt F)),
    StableHlo.nullary main_c_4 (constantI S_ 32 0#32),
    StableHlo.TRef.nullary main_call2.cst (constant S_ .f32 0x00000000#32),
    StableHlo.TRef.binary (.of main_v32 : StableHlo.TRef sig ⟨S100000x128, .f32⟩) main_call2.cst main_call2.v0 (fun x v => Host.reduceAdd x v reducesTo_S100000x128_S100000_d1 h_S_),
    StableHlo.TRef.unary main_call2.v0 main_call2.v1 (broadcastInDim S100000x1 ![0] bcast_S100000_S100000x1_0),
    StableHlo.TRef.nullary main_call2.cst_0 (constant S_ .f32 0x43000000#32),
    StableHlo.TRef.unary main_call2.cst_0 main_call2.v2 (broadcastInDim S100000x1 ![] bcast_S_S100000x1),
    StableHlo.TRef.binary main_call2.v1 main_call2.v2 main_call2.v3 Host.divf,
    StableHlo.TRef.unary main_call2.v3 main_call2.v4 (broadcastInDim S100000x128 ![0, 1] bcast_S100000x1_S100000x128_0_1),
    StableHlo.TRef.binary (.of main_v32 : StableHlo.TRef sig ⟨S100000x128, .f32⟩) main_call2.v4 main_call2.v5 subf,
    StableHlo.TRef.binary main_call2.v5 main_call2.v5 main_call2.v6 mulf,
    StableHlo.TRef.unary (.of main_c_4 : StableHlo.TRef sig ⟨S_, .i32⟩) main_call2.v7 (sitofp .f32),
    StableHlo.TRef.nullary main_call2.cst_1 (constant S_ .f32 0x43000000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S100000x128_S100000_d1 h_S_),
    StableHlo.TRef.unary main_call2.v9 main_call2.v10 (broadcastInDim S100000x1 ![0] bcast_S100000_S100000x1_0),
    StableHlo.TRef.unary main_call2.v8 main_call2.v11 (broadcastInDim S100000x1 ![] bcast_S_S100000x1),
    StableHlo.TRef.binary main_call2.v10 main_call2.v11 main_call2.v12 Host.divf,
    StableHlo.TRef.nullary main_call2.cst_3 (constant S_ .f32 0x00000000#32),
    StableHlo.TRef.binary main_call2.v8 main_call2.cst_3 main_call2.v13 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S100000x1 ![] bcast_S_S100000x1),
    StableHlo.TRef.ternary main_call2.v13 main_call2.v12 main_call2.call0.v1 main_call2.call0.v2 (fun p a b => select (broadcastInDim S100000x1 ![] bcast_S_S100000x1 p) a b),
    StableHlo.unary main_v36 main_v38 (broadcastInDim S100000x128 ![0, 1] bcast_S100000x1_S100000x128_0_1 : (⟨S100000x1, .f32⟩ : BufTy).Contents (Elt F) → (⟨S100000x128, .f32⟩ : BufTy).Contents (Elt F)),
    StableHlo.binary main_v32 main_v38 main_v39 (subf : (⟨S100000x128, .f32⟩ : BufTy).Contents (Elt F) → (⟨S100000x128, .f32⟩ : BufTy).Contents (Elt F) → (⟨S100000x128, .f32⟩ : BufTy).Contents (Elt F)),
    StableHlo.nullary main_cst_5 (constant S_ .f32 0x3727C5AC#32),
    StableHlo.unary main_cst_5 main_v40 (broadcastInDim S100000x1 ![] bcast_S_S100000x1 : (⟨S_, .f32⟩ : BufTy).Contents (Elt F) → (⟨S100000x1, .f32⟩ : BufTy).Contents (Elt F)),
    StableHlo.binary main_v37 main_v40 main_v41 (addf : (⟨S100000x1, .f32⟩ : BufTy).Contents (Elt F) → (⟨S100000x1, .f32⟩ : BufTy).Contents (Elt F) → (⟨S100000x1, .f32⟩ : BufTy).Contents (Elt F)),
    StableHlo.unary main_v41 main_v42 (Host.rsqrt : (⟨S100000x1, .f32⟩ : BufTy).Contents (Elt F) → (⟨S100000x1, .f32⟩ : BufTy).Contents (Elt F)),
    StableHlo.unary main_v42 main_v43 (broadcastInDim S100000x128 ![0, 1] bcast_S100000x1_S100000x128_0_1 : (⟨S100000x1, .f32⟩ : BufTy).Contents (Elt F) → (⟨S100000x128, .f32⟩ : BufTy).Contents (Elt F)),
    StableHlo.binary main_v39 main_v43 main_v44 (mulf : (⟨S100000x128, .f32⟩ : BufTy).Contents (Elt F) → (⟨S100000x128, .f32⟩ : BufTy).Contents (Elt F) → (⟨S100000x128, .f32⟩ : BufTy).Contents (Elt F)),
    StableHlo.unary main_arg11 main_v45 (broadcastInDim S1x128 ![1] bcast_S128_S1x128_1 : (⟨S128, .f32⟩ : BufTy).Contents (Elt F) → (⟨S1x128, .f32⟩ : BufTy).Contents (Elt F)),
    StableHlo.unary main_v45 main_v46 (broadcastInDim S100000x128 ![0, 1] bcast_S1x128_S100000x128_0_1 : (⟨S1x128, .f32⟩ : BufTy).Contents (Elt F) → (⟨S100000x128, .f32⟩ : BufTy).Contents (Elt F)),
    StableHlo.binary main_v44 main_v46 main_v47 (mulf : (⟨S100000x128, .f32⟩ : BufTy).Contents (Elt F) → (⟨S100000x128, .f32⟩ : BufTy).Contents (Elt F) → (⟨S100000x128, .f32⟩ : BufTy).Contents (Elt F)),
    StableHlo.unary main_arg12 main_v48 (broadcastInDim S1x128 ![1] bcast_S128_S1x128_1 : (⟨S128, .f32⟩ : BufTy).Contents (Elt F) → (⟨S1x128, .f32⟩ : BufTy).Contents (Elt F)),
    StableHlo.unary main_v48 main_v49 (broadcastInDim S100000x128 ![0, 1] bcast_S1x128_S100000x128_0_1 : (⟨S1x128, .f32⟩ : BufTy).Contents (Elt F) → (⟨S100000x128, .f32⟩ : BufTy).Contents (Elt F)),
    StableHlo.binary main_v47 main_v49 main_v50 (addf : (⟨S100000x128, .f32⟩ : BufTy).Contents (Elt F) → (⟨S100000x128, .f32⟩ : BufTy).Contents (Elt F) → (⟨S100000x128, .f32⟩ : BufTy).Contents (Elt F)),
    StableHlo.TRef.nullary main_call3.cst (constant S_ .f32 0x00000000#32),
    StableHlo.TRef.unary main_call3.cst main_call3.v0 (broadcastInDim S100000x128 ![] bcast_S_S100000x128),
    StableHlo.TRef.binary (.of main_v50 : StableHlo.TRef sig ⟨S100000x128, .f32⟩) main_call3.v0 main_call3.v1 maximumf ]

set_option maxRecDepth 4096 in
set_option maxHeartbeats 4000000 in
/-- The program is that straight line: with the four functions unfolded at their calls and sequencing reassociated,
    both sides are one chain of eighty-eight steps followed by the return. -/
theorem main_eq (c : Dev nD) : main (F := F) c = seq ops := by
  simp only [main, main_part0, main_part1, fn_relu.body, fn_relu_0.body, fn_where.body, fn_var.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation touches buffers of the one core only. -/
theorem ops_sub : (ops : List (HloOp τ sig (Elt F))).Forall fun op => op.bufs ⊆ tcRefs τ sig :=
  ⟨unary_bufs_sub .., reshape_bufs_sub .., unary_bufs_sub .., reshape_bufs_sub .., binary_bufs_sub .., unary_bufs_sub ..,
    unary_bufs_sub .., binary_bufs_sub .., nullary_bufs_sub .., unary_bufs_sub .., binary_bufs_sub .., nullary_bufs_sub ..,
    unary_bufs_sub .., binary_bufs_sub .., ternary_bufs_sub .., unary_bufs_sub .., binary_bufs_sub .., binary_bufs_sub ..,
    nullary_bufs_sub .., unary_bufs_sub .., binary_bufs_sub .., nullary_bufs_sub .., unary_bufs_sub .., unary_bufs_sub ..,
    ternary_bufs_sub .., nullary_bufs_sub .., binary_bufs_sub .., unary_bufs_sub .., binary_bufs_sub .., binary_bufs_sub ..,
    binary_bufs_sub .., unary_bufs_sub .., unary_bufs_sub .., binary_bufs_sub .., nullary_bufs_sub .., unary_bufs_sub ..,
    binary_bufs_sub .., binary_bufs_sub .., unary_bufs_sub .., unary_bufs_sub .., binary_bufs_sub .., nullary_bufs_sub ..,
    binary_bufs_sub .., unary_bufs_sub .., nullary_bufs_sub .., unary_bufs_sub .., binary_bufs_sub .., nullary_bufs_sub ..,
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., unary_bufs_sub .., binary_bufs_sub .., nullary_bufs_sub ..,
    binary_bufs_sub .., nullary_bufs_sub .., unary_bufs_sub .., unary_bufs_sub .., ternary_bufs_sub .., unary_bufs_sub ..,
    binary_bufs_sub .., nullary_bufs_sub .., unary_bufs_sub .., binary_bufs_sub .., unary_bufs_sub .., unary_bufs_sub ..,
    binary_bufs_sub .., unary_bufs_sub .., unary_bufs_sub .., binary_bufs_sub .., unary_bufs_sub .., unary_bufs_sub ..,
    binary_bufs_sub .., nullary_bufs_sub .., unary_bufs_sub .., binary_bufs_sub ..⟩

attribute [local irreducible] Host.gather Host.scatterAdd Host.reduceAdd Host.divf Host.rsqrt in
set_option maxRecDepth 8192 in
set_option maxHeartbeats 4000000 in
/-- The fold at the result buffer is the layer function. Each operation's result is read at the buffer it writes and
    passed over at every other buffer (two buffers are told apart as references), which leaves the operations' functions
    composed over the argument contents; that composition is the layer function stage by stage, by unfolding the stages
    (a reshape contributes the row-major recast in eta-expanded form, a typed operation a transport along an equation
    that is reflexivity). The gather, the scatter-add, the row sums, the quotient and the inverse square root stay
    folded meanwhile: the equation never looks inside them. -/
theorem out_eq (V : Valuation τ sig (Elt F)) :
    after ops V (main_v51 : DevRef τ sig) = Cert.ReferenceIdeal.Stages.layer (F := F) (V (main_arg0 : DevRef τ sig)) (V (main_arg1 : DevRef τ sig)) (V (main_arg2 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) := by
  after_results_simp
  rfl

set_option maxRecDepth 8192 in
set_option maxHeartbeats 4000000 in
/-- No operation writes an argument buffer: the fold leaves all thirteen at their contents. -/
theorem args_eq (V : Valuation τ sig (Elt F)) :
    after ops V (main_arg0 : DevRef τ sig) = V (main_arg0 : DevRef τ sig)
      ∧ after ops V (main_arg1 : DevRef τ sig) = V (main_arg1 : DevRef τ sig)
      ∧ after ops V (main_arg2 : DevRef τ sig) = V (main_arg2 : DevRef τ sig)
      ∧ after ops V (main_arg3 : DevRef τ sig) = V (main_arg3 : DevRef τ sig)
      ∧ after ops V (main_arg4 : DevRef τ sig) = V (main_arg4 : DevRef τ sig)
      ∧ after ops V (main_arg5 : DevRef τ sig) = V (main_arg5 : DevRef τ sig)
      ∧ after ops V (main_arg6 : DevRef τ sig) = V (main_arg6 : DevRef τ sig)
      ∧ after ops V (main_arg7 : DevRef τ sig) = V (main_arg7 : DevRef τ sig)
      ∧ after ops V (main_arg8 : DevRef τ sig) = V (main_arg8 : DevRef τ sig)
      ∧ after ops V (main_arg9 : DevRef τ sig) = V (main_arg9 : DevRef τ sig)
      ∧ after ops V (main_arg10 : DevRef τ sig) = V (main_arg10 : DevRef τ sig)
      ∧ after ops V (main_arg11 : DevRef τ sig) = V (main_arg11 : DevRef τ sig)
      ∧ after ops V (main_arg12 : DevRef τ sig) = V (main_arg12 : DevRef τ sig) := by
  refine ⟨?_, ?_, ?_, ?_, ?_, ?_, ?_, ?_, ?_, ?_, ?_, ?_, ?_⟩ <;> after_results_simp

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v51) = Cert.ReferenceIdeal.Stages.layer (F := F) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c =>
      have ha := args_eq (F := F) (launchContents m c)
      ⟨(h c main_v51).trans (out_eq (F := F) (launchContents m c)),
        (h c main_arg0).trans ha.1, (h c main_arg1).trans ha.2.1, (h c main_arg2).trans ha.2.2.1,
        (h c main_arg3).trans ha.2.2.2.1, (h c main_arg4).trans ha.2.2.2.2.1, (h c main_arg5).trans ha.2.2.2.2.2.1,
        (h c main_arg6).trans ha.2.2.2.2.2.2.1, (h c main_arg7).trans ha.2.2.2.2.2.2.2.1,
        (h c main_arg8).trans ha.2.2.2.2.2.2.2.2.1, (h c main_arg9).trans ha.2.2.2.2.2.2.2.2.2.1,
        (h c main_arg10).trans ha.2.2.2.2.2.2.2.2.2.2.1, (h c main_arg11).trans ha.2.2.2.2.2.2.2.2.2.2.2.1,
        (h c main_arg12).trans ha.2.2.2.2.2.2.2.2.2.2.2.2⟩)
    (run_seq scopedRefs_eq scopedSems_eq defs main (fun _ => ops) main_eq (fun _ => ops_sub) m ρ)

end Cert.ReferenceIdeal.HandRun

end
-- ==== Proof.lean ====
/-
  One message-passing graph layer, as a tiled two-kernel program and as plain array code: the same function over the
  extended reals.

  The layer: every edge takes the feature row of its source node, adds a 6 -> 128 linear embedding of its own
  attributes, and keeps the positive part; the messages are summed into their target nodes; every node row becomes
  (1 + eps) x + (sum of its messages), passes through two dense layers with a rectifier between them, is normalised
  along its 128 features and rectified.

  The tiled program computes the messages in 100 blocks of 6000 edges and the node update in 20 blocks of 5000 nodes;
  the gather of source rows and the sum into target nodes are the same whole-array operations in both programs. Over
  the extended reals a block of rows is computed exactly as those rows of the whole array are: a change of float
  format is the identity, a matrix product into a zero accumulator is the plain sum of products, a lane sum is the
  plain sum, and every row of the node update depends on its own row only. The blocks tile the arrays, so each
  region leaves the reference's array; the two programs then differ only in how they write a vector as a row
  (reshape against broadcast) and a divisor (128 against 128 - 0, kept because it is positive). No law of arithmetic
  that fails at infinities is used, so the inputs' finiteness is never opened.

  Frames: the two tiled programs' are their generated frames; the reference's is its run with the result dropped.
  Nothing was rewritten between the word-level program and its idealisation, so that claim is trivial.
-/
import proofs.«104617_j74113955660246_1_alg».proof.Defs
import proofs.«104617_j74113955660246_1_alg».proof.Proof.Gen.Kernel
import proofs.«104617_j74113955660246_1_alg».proof.Proof.Gen.Kernel.Frame
import proofs.«104617_j74113955660246_1_alg».proof.Proof.Gen.KernelIdeal
import proofs.«104617_j74113955660246_1_alg».proof.Proof.Gen.KernelIdeal.Frame
import proofs.«104617_j74113955660246_1_alg».proof.Proof.Gen.ReferenceIdeal
import proofs.«104617_j74113955660246_1_alg».proof.Proof.Gen.Pre_finite_inputs
import proofs.«104617_j74113955660246_1_alg».proof.Proof.KernelRun
import proofs.«104617_j74113955660246_1_alg».proof.Proof.KernelValue
import proofs.«104617_j74113955660246_1_alg».proof.Proof.RefRun

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference terminates with its arguments unchanged: its run, the result dropped. -/
theorem frame_referenceIdeal : Cert.frame_ReferenceIdeal := fun m ρ _ =>
  (θ_run Cert.ReferenceIdeal.defs _ _).mono (fun _ h c => (h c).2) (Cert.ReferenceIdeal.HandRun.run (F := Ideal) m ρ)

theorem preserves : Cert.preserves_Kernel_KernelIdeal := trivial

/-- Both programs end with the layer function of the argument arrays in their result buffer. -/
theorem algebraic : Cert.algebraic_KernelIdeal_ReferenceIdeal := by
  intro m ρ m' ρ' _ hagree
  refine ⟨fun c => Cert.ReferenceIdeal.Stages.layer (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12)), ?_, ?_⟩
  · exact (θ_run Cert.KernelIdeal.defs _ _).mono
      (fun _ h c => ⟨(h c).1.trans (Cert.KernelIdeal.Result.result m ρ c), (h c).2⟩)
      (Cert.KernelIdeal.Gen.run_named m ρ)
  · refine (θ_run Cert.ReferenceIdeal.defs _ _).mono (fun _ h c => ⟨(h c).1.trans ?_, (h c).2⟩)
      (Cert.ReferenceIdeal.HandRun.run (F := Ideal) m' ρ')
    obtain ⟨a0, a1, a2, -, a4, a5, a6, a7, a8, a9, a10, a11, a12⟩ := hagree c
    rw [a0, a1, a2, a4, a5, a6, a7, a8, a9, a10, a11, a12]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
